-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x1x4096 : Shape := ⟨3, ![4, 1, 4096]⟩
abbrev S1x512x3 : Shape := ⟨3, ![1, 512, 3]⟩
abbrev S1x1x512 : Shape := ⟨3, ![1, 1, 512]⟩
abbrev S1x1x4096 : Shape := ⟨3, ![1, 1, 4096]⟩
abbrev S1x512 : Shape := ⟨2, ![1, 512]⟩
abbrev S1x4096 : Shape := ⟨2, ![1, 4096]⟩
abbrev S512x3 : Shape := ⟨2, ![512, 3]⟩
abbrev S3x512 : Shape := ⟨2, ![3, 512]⟩
abbrev S512x512 : Shape := ⟨2, ![512, 512]⟩
abbrev S512x1 : Shape := ⟨2, ![512, 1]⟩
abbrev S512 : Shape := ⟨1, ![512]⟩
abbrev S4x4096 : Shape := ⟨2, ![4, 4096]⟩
abbrev S_ : Shape := ⟨0, ![]⟩
abbrev S4 : Shape := ⟨1, ![4]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x1x4096, .f32⟩
  | .hbm, ⟨3, _⟩ => ⟨S4x1x4096, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S1x512, .f32⟩
  | .local _ .vmem, ⟨9, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c512_i32 : BitVec 32 := 512#32
  let v57 : BitVec 32 := Scalar.muli arg2 c512_i32
  v57
def k0_off1 (i : grid0.Coords) : Fin 2 → Nat :=
  let c0_15 : Index := 0#32
  let arg2 : BitVec 32 := BitVec.ofNat 32 (i 2).val
  let c512_i32 : BitVec 32 := 512#32
  let v57 : BitVec 32 := Scalar.muli arg2 c512_i32
  let v58 : BitVec 32 := v57
  let v59 : Index := Scalar.indexCast v58
  ![0, v59.toNat]
def k0_cond3 (i : grid0.Coords) : BitVec 1 :=
  let arg2 : BitVec 32 := BitVec.ofNat 32 (i 2).val
  let c7_i32 : BitVec 32 := 7#32
  let v66 : BitVec 1 := Scalar.cmpi .eq arg2 c7_i32
  let v67 : BitVec 32 := Scalar.extui v66
  let c0_i32_17 : BitVec 32 := 0#32
  let v68 : BitVec 1 := Scalar.cmpi .ne v67 c0_i32_17
  v68

def k0_cond4 (i : grid0.Coords) : BitVec 1 :=
  let arg1 : BitVec 32 := BitVec.ofNat 32 (i 1).val
  let c7_i32_18 : BitVec 32 := 7#32
  let v69 : BitVec 1 := Scalar.cmpi .eq arg1 c7_i32_18
  let arg2 : BitVec 32 := BitVec.ofNat 32 (i 2).val
  let c7_i32_19 : BitVec 32 := 7#32
  let v70 : BitVec 1 := Scalar.cmpi .eq arg2 c7_i32_19
  let v71 : BitVec 1 := Scalar.andi v69 v70
  let v72 : BitVec 32 := Scalar.extui v71
  let c0_i32_20 : BitVec 32 := 0#32
  let v73 : BitVec 1 := Scalar.cmpi .ne v72 c0_i32_20
  v73

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  transposes_S512x3_p1_0_S3x512 : S512x3.Transposes [1, 0] S3x512
  slices_S512x3_o0_0_S512x1 : S512x3.Slices ![0, 0] S512x1
  shapeCasts_S512x1_S512 : S512x1.ShapeCasts S512
  shapeCasts_S512_S512x1 : S512.ShapeCasts S512x1
  slices_S3x512_o0_0_S1x512 : S3x512.Slices ![0, 0] S1x512
  shapeCasts_S1x512_S512 : S1x512.ShapeCasts S512
  shapeCasts_S512_S1x512 : S512.ShapeCasts S1x512
  broadcasts_S512x1_S512x512 : S512x1.Broadcasts S512x512
  broadcasts_S1x512_S512x512 : S1x512.Broadcasts S512x512
  slices_S512x3_o0_1_S512x1 : S512x3.Slices ![0, 1] S512x1
  slices_S3x512_o1_0_S1x512 : S3x512.Slices ![1, 0] S1x512
  slices_S512x3_o0_2_S512x1 : S512x3.Slices ![0, 2] S512x1
  slices_S3x512_o2_0_S1x512 : S3x512.Slices ![2, 0] S1x512
  reduces_S512x512_S512 : S512x512.Reduces [0] S512
  reduces_S512x512_S512_2 : S512x512.Reduces [1] S512
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S4x1x4096_S4x4096 : S4x1x4096.ShapeCasts S4x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  k0_mult1_dvd : ∀ i : grid0.Coords, 128 ∣ (k0_mult1 i).toNat
  k0_off1_inb : ∀ i : grid0.Coords, ∀ a, (k0_off1 i) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x4096.size a
  hwx0_2 : ∀ i : grid0.Coords, EltTy.bits .f32 = 32 ∨ (Rect.block (s := S4x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩
abbrev S4 : Shape := ⟨1, ![4]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.Pieces.lean ====
/-
  What one grid point leaves in the two running minima and in the two result blocks, case by case, as the pure
  values the body stores.

  The first cloud's running minimum (512 wide) is either reset to plus infinity and then met with the tile's column
  minima (first second-cloud tile of a sweep) or met with them directly.  The second cloud's running minimum (4096
  wide) is touched only on the 512 columns of the current second-cloud tile: there it becomes the old value (plus
  infinity at a batch's first point) met with the tile's row minima, elsewhere it keeps the old value.  At the last
  second-cloud tile of a sweep the first result's block is the clamped root of the first running minimum just updated;
  at a batch's last point the second result's block is the clamped root of the second.
-/
import proofs.«135613_j17952963297894_1_alg».proof.Proof.Gen.KernelIdeal.Frame
import Idealize.ShloMosaic.Lib.Pipeline.Value
import Idealize.ShloMosaic.Lib.WritesUnit
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the first cloud's running minimum is reset to plus infinity and met with the tile's column minima. -/
theorem row_A (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x512x3 .f32) :
    sout0_A_0 c i arg3 harg3 arg4 harg4 arg5 harg5 arg6 harg6 arg7 harg7 arg8 harg8 hc0 hc1 hc2 hc3 x0 x1 = k0_pay2 (k0_pay8 x0 x1) (k0_pay1 (F := F)) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S1x512) hz2, View.readCov_unit_zero (S := S1x512) _ hz2]
  simp only [View.readAt_eq_ld, harg3.read_unread, harg4.read_unread, harg7.read_unread, View.ld_unit_zero (S := S1x512x3) hz3, View.ld_unit_zero (S := S1x512) hz2]

/-- Case D: the first cloud's running minimum is reset to plus infinity and met with the tile's column minima. -/
theorem row_D (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x512x3 .f32) (xs1 : Vec F S1x4096 .f32) :
    sout0_D_0 c i arg3 harg3 arg4 harg4 arg5 harg5 arg6 harg6 arg7 harg7 arg8 harg8 hc0 hc1 hc2 hc3 x0 x1 xs1 = k0_pay2 (k0_pay8 x0 x1) (k0_pay1 (F := F)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x512) hz2, View.readCov_unit_zero (S := S1x512) _ hz2]
  simp only [View.readAt_eq_ld, harg3.read_unread, harg4.read_unread, harg7.read_unread, View.ld_unit_zero (S := S1x512x3) hz3, View.ld_unit_zero (S := S1x512) hz2]

/-- Case B: the first cloud's running minimum is met with the tile's column minima. -/
theorem row_B (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x512x3 .f32) (xs0 : Vec F S1x512 .f32) (xs1 : Vec F S1x4096 .f32) :
    sout0_B_0 c i arg3 harg3 arg4 harg4 arg5 harg5 arg6 harg6 arg7 harg7 arg8 harg8 hc0 hc1 hc2 hc3 x0 x1 xs0 xs1 = k0_pay2 (k0_pay8 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero (S := S1x512) hz2]
  simp only [View.readAt_eq_ld, harg3.read_unread, harg4.read_unread, harg7.read_unread, View.ld_unit_zero (S := S1x512x3) hz3, View.ld_unit_zero (S := S1x512) hz2]

/-- Case C: the first cloud's running minimum is met with the tile's column minima. -/
theorem row_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x512x3 .f32) (xs0 : Vec F S1x512 .f32) (xs1 : Vec F S1x4096 .f32) :
    sout0_C_0 c i arg3 harg3 arg4 harg4 arg5 harg5 arg6 harg6 arg7 harg7 arg8 harg8 hc0 hc1 hc2 hc3 x0 x1 xs0 xs1 = k0_pay2 (k0_pay8 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero (S := S1x512) hz2]
  simp only [View.readAt_eq_ld, harg3.read_unread, harg4.read_unread, harg7.read_unread, View.ld_unit_zero (S := S1x512x3) hz3, View.ld_unit_zero (S := S1x512) hz2]

/-- Case E: the first cloud's running minimum is met with the tile's column minima. -/
theorem row_E (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x512x3 .f32) (xs0 : Vec F S1x512 .f32) (xs1 : Vec F S1x4096 .f32) :
    sout0_E_0 c i arg3 harg3 arg4 harg4 arg5 harg5 arg6 harg6 arg7 harg7 arg8 harg8 hc0 hc1 hc2 hc3 x0 x1 xs0 xs1 = k0_pay2 (k0_pay8 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero (S := S1x512) hz2]
  simp only [View.readAt_eq_ld, harg3.read_unread, harg4.read_unread, harg7.read_unread, View.ld_unit_zero (S := S1x512x3) hz3, View.ld_unit_zero (S := S1x512) hz2]

/-- Case C: the first result's block is the clamped root of the running minimum just updated. -/
theorem out2_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x512x3 .f32) (xs0 : Vec F S1x512 .f32) (xs1 : Vec F S1x4096 .f32) :
    out0_C_2 c i arg3 harg3 arg4 harg4 arg5 harg5 arg6 harg6 arg7 harg7 arg8 harg8 hc0 hc1 hc2 hc3 x0 x1 xs0 xs1 = k0_pay5 (k0_pay2 (k0_pay8 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero (S := S1x1x512) hz3, View.readCov_unit_zero (S := S1x512) _ hz2]
  simp only [View.readAt_eq_ld, harg3.read_unread, harg4.read_unread, harg7.read_unread, View.ld_unit_zero (S := S1x512x3) hz3, View.ld_unit_zero (S := S1x512) hz2]

/-- Case E: the first result's block is the clamped root of the running minimum just updated. -/
theorem out2_E (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x512x3 .f32) (xs0 : Vec F S1x512 .f32) (xs1 : Vec F S1x4096 .f32) :
    out0_E_2 c i arg3 harg3 arg4 harg4 arg5 harg5 arg6 harg6 arg7 harg7 arg8 harg8 hc0 hc1 hc2 hc3 x0 x1 xs0 xs1 = k0_pay5 (k0_pay2 (k0_pay8 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero (S := S1x1x512) hz3, View.readCov_unit_zero (S := S1x512) _ hz2]
  simp only [View.readAt_eq_ld, harg3.read_unread, harg4.read_unread, harg7.read_unread, View.ld_unit_zero (S := S1x512x3) hz3, View.ld_unit_zero (S := S1x512) hz2]

/-- What a fill of the whole 4096-wide buffer leaves, read back. -/
theorem read_fill (arg8 : Memref sig .tc .vmem S1x4096 .f32) (f : arg8.view.ty.Contents (Elt F)) (w : S1x4096.Idx → Elt F .f32) :
    arg8.view.read (Elt F) (arg8.view.writes (Elt F) f [⟨Rect.unit ![0, 0] S1x4096.size Facts₀.inb_S1x4096_S1x4096_0_0, w⟩]) = w :=
  (View.read_writes_eq_canon _ _ _ (fun y => ⟨_, List.mem_singleton_self _, View.mem_set_unit_zero hz2 Facts₀.inb_S1x4096_S1x4096_0_0 y⟩)).trans
    (View.canon_unit_zero hz2 _ _)

/-- Case A, a column of the current second-cloud tile: plus infinity met with the tile's row minimum. -/
theorem col_A_hit (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x512x3 .f32) (y : S1x4096.Idx) (x : S1x512.Idx) (off' : Fin 2 → ℕ) (heq : k0_off1 i = off')
    (hx : ∀ a, (y a).val = off' a + (x a).val) :
    sout0_A_1 c i arg3 harg3 arg4 harg4 arg5 harg5 arg6 harg6 arg7 harg7 arg8 harg8 hc0 hc1 hc2 hc3 x0 x1 y
      = k0_pay4 (k0_pay9 x0 x1) (View.ld (k0_pay3 (F := F)) (Rect.unit (s := S1x4096) (k0_off1 i) S1x512.size (Facts₀.k0_off1_inb i))) x := by
  unfold sout0_A_1
  unfold kernelRun0_A
  dsimp only
  sl_unfold_words
  refine (View.read_writes_cons_unit_of_mem _ _ _ _ _ y x heq hx).trans ?_
  simp only [View.readAt_eq_ld, harg3.read_unread, harg4.read_unread, View.ld_unit_zero (S := S1x512x3) hz3]
  exact congrArg (fun v => k0_pay4 (k0_pay9 x0 x1) (View.ld v (Rect.unit (s := S1x4096) (k0_off1 i) S1x512.size (Facts₀.k0_off1_inb i))) x) (read_fill arg8 _ _)

/-- Case A, any other column: plus infinity. -/
theorem col_A_miss (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 x1 : Vec F S1x512x3 .f32) (y : S1x4096.Idx) (off' : Fin 2 → ℕ) (heq : k0_off1 i = off')
    (a : Fin 2) (ha : (y a).val < off' a ∨ off' a + S1x512.size a ≤ (y a).val) :
    sout0_A_1 c i arg3 harg3 arg4 harg4 arg5 harg5 arg6 harg6 arg7 harg7 arg8 harg8 hc0 hc1 hc2 hc3 x0 x1 y = k0_pay3 (F := F) y := by
  unfold sout0_A_1
  unfold kernelRun0_A
  dsimp only
  sl_unfold_words
  refine (View.read_writes_cons_unit_of_not_mem _ _ _ _ _ y heq a ha).trans ?_
  exact congrFun (read_fill _ _ _) y

/-- Case B, a column of the current second-cloud tile: the old value met with the tile's row minimum. -/
theorem col_B_hit (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x512x3 .f32) (xs0 : Vec F S1x512 .f32) (xs1 : Vec F S1x4096 .f32) (y : S1x4096.Idx) (x : S1x512.Idx) (off' : Fin 2 → ℕ) (heq : k0_off1 i = off')
    (hx : ∀ a, (y a).val = off' a + (x a).val) :
    sout0_B_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x512.size (Facts₀.k0_off1_inb i))) x := by
  unfold sout0_B_1
  unfold kernelRun0_B
  dsimp only
  sl_unfold_words
  refine (View.read_writes_cons_unit_of_mem _ _ _ _ _ y x heq hx).trans ?_
  simp only [View.readAt_eq_ld, harg3.read_unread, harg4.read_unread, harg8.read_unread, View.ld_unit_zero (S := S1x512x3) hz3]

/-- Case B, any other column: the old value stays. -/
theorem col_B_miss (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 x1 : Vec F S1x512x3 .f32) (xs0 : Vec F S1x512 .f32) (xs1 : Vec F S1x4096 .f32) (y : S1x4096.Idx) (off' : Fin 2 → ℕ) (heq : k0_off1 i = off')
    (a : Fin 2) (ha : (y a).val < off' a ∨ off' a + S1x512.size a ≤ (y a).val) :
    sout0_B_1 c i arg3 harg3 arg4 harg4 arg5 harg5 arg6 harg6 arg7 harg7 arg8 harg8 hc0 hc1 hc2 hc3 x0 x1 xs0 xs1 y = xs1 y := by
  unfold sout0_B_1
  unfold kernelRun0_B
  dsimp only
  sl_unfold_words
  refine (View.read_writes_cons_unit_of_not_mem _ _ _ _ _ y heq a ha).trans ?_
  rw [View.writes_nil, harg8.read_unread]

/-- Case C, a column of the current second-cloud tile: the old value met with the tile's row minimum. -/
theorem col_C_hit (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x512x3 .f32) (xs0 : Vec F S1x512 .f32) (xs1 : Vec F S1x4096 .f32) (y : S1x4096.Idx) (x : S1x512.Idx) (off' : Fin 2 → ℕ) (heq : k0_off1 i = off')
    (hx : ∀ a, (y a).val = off' a + (x a).val) :
    sout0_C_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x512.size (Facts₀.k0_off1_inb i))) x := by
  unfold sout0_C_1
  unfold kernelRun0_C
  dsimp only
  sl_unfold_words
  refine (View.read_writes_cons_unit_of_mem _ _ _ _ _ y x heq hx).trans ?_
  simp only [View.readAt_eq_ld, harg3.read_unread, harg4.read_unread, harg8.read_unread, View.ld_unit_zero (S := S1x512x3) hz3]

/-- Case C, any other column: the old value stays. -/
theorem col_C_miss (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 x1 : Vec F S1x512x3 .f32) (xs0 : Vec F S1x512 .f32) (xs1 : Vec F S1x4096 .f32) (y : S1x4096.Idx) (off' : Fin 2 → ℕ) (heq : k0_off1 i = off')
    (a : Fin 2) (ha : (y a).val < off' a ∨ off' a + S1x512.size a ≤ (y a).val) :
    sout0_C_1 c i arg3 harg3 arg4 harg4 arg5 harg5 arg6 harg6 arg7 harg7 arg8 harg8 hc0 hc1 hc2 hc3 x0 x1 xs0 xs1 y = xs1 y := by
  unfold sout0_C_1
  unfold kernelRun0_C
  dsimp only
  sl_unfold_words
  refine (View.read_writes_cons_unit_of_not_mem _ _ _ _ _ y heq a ha).trans ?_
  rw [View.writes_nil, harg8.read_unread]

/-- Case D, a column of the current second-cloud tile: the old value met with the tile's row minimum. -/
theorem col_D_hit (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x512x3 .f32) (xs1 : Vec F S1x4096 .f32) (y : S1x4096.Idx) (x : S1x512.Idx) (off' : Fin 2 → ℕ) (heq : k0_off1 i = off')
    (hx : ∀ a, (y a).val = off' a + (x a).val) :
    sout0_D_1 c i arg3 harg3 arg4 harg4 arg5 harg5 arg6 harg6 arg7 harg7 arg8 harg8 hc0 hc1 hc2 hc3 x0 x1 xs1 y
      = k0_pay4 (k0_pay9 x0 x1) (View.ld xs1 (Rect.unit (s := S1x4096) (k0_off1 i) S1x512.size (Facts₀.k0_off1_inb i))) x := by
  unfold sout0_D_1
  unfold kernelRun0_D
  dsimp only
  sl_unfold_words
  refine (View.read_writes_cons_unit_of_mem _ _ _ _ _ y x heq hx).trans ?_
  simp only [View.readAt_eq_ld, harg3.read_unread, harg4.read_unread, harg8.read_unread, View.ld_unit_zero (S := S1x512x3) hz3]

/-- Case D, any other column: the old value stays. -/
theorem col_D_miss (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i) (x0 x1 : Vec F S1x512x3 .f32) (xs1 : Vec F S1x4096 .f32) (y : S1x4096.Idx) (off' : Fin 2 → ℕ) (heq : k0_off1 i = off')
    (a : Fin 2) (ha : (y a).val < off' a ∨ off' a + S1x512.size a ≤ (y a).val) :
    sout0_D_1 c i arg3 harg3 arg4 harg4 arg5 harg5 arg6 harg6 arg7 harg7 arg8 harg8 hc0 hc1 hc2 hc3 x0 x1 xs1 y = xs1 y := by
  unfold sout0_D_1
  unfold kernelRun0_D
  dsimp only
  sl_unfold_words
  refine (View.read_writes_cons_unit_of_not_mem _ _ _ _ _ y heq a ha).trans ?_
  rw [View.writes_nil, harg8.read_unread]

/-- Case E, a column of the current second-cloud tile: the old value met with the tile's row minimum. -/
theorem col_E_hit (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x512x3 .f32) (xs0 : Vec F S1x512 .f32) (xs1 : Vec F S1x4096 .f32) (y : S1x4096.Idx) (x : S1x512.Idx) (off' : Fin 2 → ℕ) (heq : k0_off1 i = off')
    (hx : ∀ a, (y a).val = off' a + (x a).val) :
    sout0_E_1 c i arg3 harg3 arg4 harg4 arg5 harg5 arg6 harg6 arg7 harg7 arg8 harg8 hc0 hc1 hc2 hc3 x0 x1 xs0 xs1 y
      = k0_pay4 (k0_pay9 x0 x1) (View.ld xs1 (Rect.unit (s := S1x4096) (k0_off1 i) S1x512.size (Facts₀.k0_off1_inb i))) x := by
  unfold sout0_E_1
  unfold kernelRun0_E
  dsimp only
  sl_unfold_words
  refine (View.read_writes_cons_unit_of_mem _ _ _ _ _ y x heq hx).trans ?_
  simp only [View.readAt_eq_ld, harg3.read_unread, harg4.read_unread, harg8.read_unread, View.ld_unit_zero (S := S1x512x3) hz3]

/-- Case E, any other column: the old value stays. -/
theorem col_E_miss (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x512x3 .f32) (xs0 : Vec F S1x512 .f32) (xs1 : Vec F S1x4096 .f32) (y : S1x4096.Idx) (off' : Fin 2 → ℕ) (heq : k0_off1 i = off')
    (a : Fin 2) (ha : (y a).val < off' a ∨ off' a + S1x512.size a ≤ (y a).val) :
    sout0_E_1 c i arg3 harg3 arg4 harg4 arg5 harg5 arg6 harg6 arg7 harg7 arg8 harg8 hc0 hc1 hc2 hc3 x0 x1 xs0 xs1 y = xs1 y := by
  unfold sout0_E_1
  unfold kernelRun0_E
  dsimp only
  sl_unfold_words
  refine (View.read_writes_cons_unit_of_not_mem _ _ _ _ _ y heq a ha).trans ?_
  rw [View.writes_nil, harg8.read_unread]

/-- Case E: the second result's block is the clamped root of the second cloud's running minimum just updated. -/
theorem out3_E (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (arg7 : Memref sig .tc .vmem S1x512 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 x1 : Vec F S1x512x3 .f32) (xs0 : Vec F S1x512 .f32) (xs1 : Vec F S1x4096 .f32) :
    out0_E_3 c i arg3 harg3 arg4 harg4 arg5 harg5 arg6 harg6 arg7 harg7 arg8 harg8 hc0 hc1 hc2 hc3 x0 x1 xs0 xs1 = k0_pay6 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero (S := S1x1x4096) hz3]
  simp only [View.readAt_eq_ld, View.ld_unit_zero (S := S1x4096) hz2]

end Cert.KernelIdeal.Pieces

end
-- ==== Proof.PointValues.lean ====
/-
  The two running minima and the two result blocks after a grid point, by the point's position in its sweeps
  (points are numbered 64·batch + 8·i + j): which value each holds in terms of the point's two tiles and of what the
  point before left.
-/
import proofs.«135613_j17952963297894_1_alg».proof.Proof.Pieces
import Idealize.ShloMosaic.PureOps.Ideal

noncomputable section

open Idealize.ShloMosaic Idealize.ShloMosaic.TcCoe Idealize.SL.Sem

namespace Cert.KernelIdeal.Pts

open Cert.KernelIdeal Cert.KernelIdeal.Gen

variable (m : (ℓ : Loc nD τ sig) → Buf (Elt Ideal) ℓ)

/-- The first cloud's running minimum at the first second-cloud tile of a sweep: reset, then met with the tile's column minima. -/
theorem row_reset (c : Dev nD) (t : Fin cfg0.N) (h0 : t.val % 8 = 0) :
    (outsAt0 m c t.val t.isLt).2.2.1 = k0_pay2 (k0_pay8 (iblk m c 0 t) (iblk m c 1 t)) (k0_pay1 (F := Ideal)) := by
  have h2 : ¬t.val % 8 = 7 := by omega
  have h3 : ¬t.val % 64 = 63 := by omega
  by_cases h1 : t.val % 64 = 0
  · rw [outsAt0_A m c t h0 h1 h2 h3]; dsimp only
    exact Pieces.row_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  · rw [outsAt0_D m c t h0 h1 h2 h3]; dsimp only
    exact Pieces.row_D (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2

/-- At any later second-cloud tile: what the point before left, met with the tile's column minima. -/
theorem row_acc (c : Dev nD) (t : Fin cfg0.N) (h0 : ¬t.val % 8 = 0) :
    (outsAt0 m c t.val t.isLt).2.2.1 = k0_pay2 (k0_pay8 (iblk m c 0 t) (iblk m c 1 t)) (outsAt0 m c (t.val - 1) (Nat.lt_of_le_of_lt (Nat.sub_le _ _) t.isLt)).2.2.1 := by
  have h1 : ¬t.val % 64 = 0 := by omega
  by_cases h2 : t.val % 8 = 7
  · by_cases h3 : t.val % 64 = 63
    · rw [outsAt0_E m c t h0 h1 h2 h3]; dsimp only
      exact Pieces.row_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    · rw [outsAt0_C m c t h0 h1 h2 h3]; dsimp only
      exact Pieces.row_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · have h3 : ¬t.val % 64 = 63 := by omega
    rw [outsAt0_B m c t h0 h1 h2 h3]; dsimp only
    exact Pieces.row_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The second cloud's running minimum at a batch's first point, on a column of the current tile. -/
theorem col_first_hit (c : Dev nD) (t : Fin cfg0.N) (h1 : t.val % 64 = 0) (y : S1x4096.Idx) (x : S1x512.Idx)
    (off' : Fin 2 → ℕ) (heq : k0_off1 (grid0.coords t) = off') (hx : ∀ a, (y a).val = off' a + (x a).val) :
    (outsAt0 m c t.val t.isLt).2.2.2 y
      = k0_pay4 (k0_pay9 (iblk m c 0 t) (iblk m c 1 t))
          (View.ld (k0_pay3 (F := Ideal)) (Rect.unit (s := S1x4096) (k0_off1 (grid0.coords t)) S1x512.size (Facts₀.k0_off1_inb (grid0.coords t)))) x := by
  have h0 : t.val % 8 = 0 := by omega
  have h2 : ¬t.val % 8 = 7 := by omega
  have h3 : ¬t.val % 64 = 63 := by omega
  rw [outsAt0_A m c t h0 h1 h2 h3]; dsimp only
  exact Pieces.col_A_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) y x off' heq hx

/-- At a batch's first point, on any other column. -/
theorem col_first_miss (c : Dev nD) (t : Fin cfg0.N) (h1 : t.val % 64 = 0) (y : S1x4096.Idx)
    (off' : Fin 2 → ℕ) (heq : k0_off1 (grid0.coords t) = off') (a : Fin 2)
    (ha : (y a).val < off' a ∨ off' a + S1x512.size a ≤ (y a).val) :
    (outsAt0 m c t.val t.isLt).2.2.2 y = k0_pay3 (F := Ideal) y := by
  have h0 : t.val % 8 = 0 := by omega
  have h2 : ¬t.val % 8 = 7 := by omega
  have h3 : ¬t.val % 64 = 63 := by omega
  rw [outsAt0_A m c t h0 h1 h2 h3]; dsimp only
  exact Pieces.col_A_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) y off' heq a ha

/-- At any later point of a batch, on a column of the current tile: what the point before left there, met with the
    tile's row minimum. -/
theorem col_next_hit (c : Dev nD) (t : Fin cfg0.N) (h1 : ¬t.val % 64 = 0) (y : S1x4096.Idx) (x : S1x512.Idx)
    (off' : Fin 2 → ℕ) (heq : k0_off1 (grid0.coords t) = off') (hx : ∀ a, (y a).val = off' a + (x a).val) :
    (outsAt0 m c t.val t.isLt).2.2.2 y
      = k0_pay4 (k0_pay9 (iblk m c 0 t) (iblk m c 1 t))
          (View.ld (outsAt0 m c (t.val - 1) (Nat.lt_of_le_of_lt (Nat.sub_le _ _) t.isLt)).2.2.2 (Rect.unit (s := S1x4096) (k0_off1 (grid0.coords t)) S1x512.size (Facts₀.k0_off1_inb (grid0.coords t)))) x := by
  by_cases h0 : t.val % 8 = 0
  · have h2 : ¬t.val % 8 = 7 := by omega
    have h3 : ¬t.val % 64 = 63 := by omega
    rw [outsAt0_D m c t h0 h1 h2 h3]; dsimp only
    exact Pieces.col_D_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 y x off' heq hx
  · by_cases h2 : t.val % 8 = 7
    · by_cases h3 : t.val % 64 = 63
      · rw [outsAt0_E m c t h0 h1 h2 h3]; dsimp only
        exact Pieces.col_E_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y x off' heq hx
      · rw [outsAt0_C m c t h0 h1 h2 h3]; dsimp only
        exact Pieces.col_C_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y x off' heq hx
    · have h3 : ¬t.val % 64 = 63 := by omega
      rw [outsAt0_B m c t h0 h1 h2 h3]; dsimp only
      exact Pieces.col_B_hit (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y x off' heq hx

/-- At any later point of a batch, on any other column: what the point before left there. -/
theorem col_next_miss (c : Dev nD) (t : Fin cfg0.N) (h1 : ¬t.val % 64 = 0) (y : S1x4096.Idx)
    (off' : Fin 2 → ℕ) (heq : k0_off1 (grid0.coords t) = off') (a : Fin 2)
    (ha : (y a).val < off' a ∨ off' a + S1x512.size a ≤ (y a).val) :
    (outsAt0 m c t.val t.isLt).2.2.2 y = (outsAt0 m c (t.val - 1) (Nat.lt_of_le_of_lt (Nat.sub_le _ _) t.isLt)).2.2.2 y := by
  by_cases h0 : t.val % 8 = 0
  · have h2 : ¬t.val % 8 = 7 := by omega
    have h3 : ¬t.val % 64 = 63 := by omega
    rw [outsAt0_D m c t h0 h1 h2 h3]; dsimp only
    exact Pieces.col_D_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 y off' heq a ha
  · by_cases h2 : t.val % 8 = 7
    · by_cases h3 : t.val % 64 = 63
      · rw [outsAt0_E m c t h0 h1 h2 h3]; dsimp only
        exact Pieces.col_E_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y off' heq a ha
      · rw [outsAt0_C m c t h0 h1 h2 h3]; dsimp only
        exact Pieces.col_C_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y off' heq a ha
    · have h3 : ¬t.val % 64 = 63 := by omega
      rw [outsAt0_B m c t h0 h1 h2 h3]; dsimp only
      exact Pieces.col_B_miss (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y off' heq a ha

/-- At the last second-cloud tile of a sweep the first result's block is the clamped root of the first cloud's
    running minimum as this point leaves it. -/
theorem out2_at (c : Dev nD) (t : Fin cfg0.N) (h2 : t.val % 8 = 7) :
    (outsAt0 m c t.val t.isLt).1 = k0_pay5 (outsAt0 m c t.val t.isLt).2.2.1 := by
  have h0 : ¬t.val % 8 = 0 := by omega
  have h1 : ¬t.val % 64 = 0 := by omega
  by_cases h3 : t.val % 64 = 63
  · rw [outsAt0_E m c t h0 h1 h2 h3]; dsimp only
    rw [Pieces.row_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact Pieces.out2_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1 h2 h3]; dsimp only
    rw [Pieces.row_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact Pieces.out2_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a batch's last point the second result's block is the clamped root of the second cloud's running minimum as
    this point leaves it. -/
theorem out3_at (c : Dev nD) (t : Fin cfg0.N) (h3 : t.val % 64 = 63) :
    (outsAt0 m c t.val t.isLt).2.1 = k0_pay6 (outsAt0 m c t.val t.isLt).2.2.2 := by
  have h0 : ¬t.val % 8 = 0 := by omega
  have h1 : ¬t.val % 64 = 0 := by omega
  have h2 : t.val % 8 = 7 := by omega
  rw [outsAt0_E m c t h0 h1 h2 h3]; dsimp only
  exact Pieces.out3_E (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Pts

end
-- ==== Proof.Spec.lean ====
/-
  The mathematics both programs compute, stated once over plain arrays of extended reals.

  Two clouds of 4096 points in three coordinates, in each of four batches.  For a point `n1` of the first cloud and a
  point `n2` of the second, `d2` is the squared Euclidean distance, summed coordinate by coordinate from zero.  One
  program takes, for every point, the least SQUARED distance to the other cloud and only then clamps at zero and takes
  the root (`rootOf`); the other takes the root of every squared distance first and then the least.  The root (after
  the clamp) is monotone and sends the top element to itself, so it commutes with a least element over a finite
  family (`rootOf_fold_min`); the clamp does nothing to a sum of squares, which is never negative; and a squared
  difference does not see the order of its two terms, at infinite values either (`sqd_comm`).  Both then average the
  two families of least distances the same way (`tail`).

  The second half is about least elements over part of an index set: the least over the indices satisfying a
  predicate, split along a disjunction, and the least over one tile of 512 consecutive indices written as a least over
  `Fin 512`.  These carry a running minimum across a sweep of tiles.
-/
import Idealize.ShloMosaic.PureOps
import Idealize.ShloMosaic.PureOps.Ideal
import Idealize.ShloMosaic.PureOps.Ideal.Laws
import Idealize.ShloMosaic.Lib.ValueIdx
import Mathlib.Algebra.BigOperators.Fin

noncomputable section

open Idealize.ShloMosaic Idealize.ShloMosaic.ValueIdx

namespace Cert.Chamfer

/-- The two point clouds: batch, point, coordinate. -/
abbrev SPts : Shape := ⟨3, ![4, 4096, 3]⟩
/-- A family of least distances: batch, point. -/
abbrev SMin : Shape := ⟨2, ![4, 4096]⟩
/-- One number per batch. -/
abbrev SBat : Shape := ⟨1, ![4]⟩
/-- A scalar. -/
abbrev SSca : Shape := ⟨0, ![]⟩

/-- The f32 pattern of plus infinity is the top extended real. -/
theorem ofBits_inf_f32 : Ideal.ofBits .f32 0x7F800000#32 = (⊤ : EReal) := by
  simp [Ideal.ofBits, Ideal.ieee]

/-! ## Squared differences and squared distances -/

/-- One coordinate's squared difference. -/
def sqd (x y : EReal) : EReal := (x - y) * (x - y)

/-- A squared difference does not depend on the order of its terms, at the infinities either. -/
theorem sqd_comm (x y : EReal) : sqd x y = sqd y x := by
  unfold sqd
  induction x using EReal.rec with
  | bot =>
    induction y using EReal.rec with
    | bot => rfl
    | coe b => rw [EReal.bot_sub, EReal.coe_sub_bot, EReal.bot_mul_bot, EReal.top_mul_top]
    | top => rw [EReal.bot_sub, EReal.top_sub_bot, EReal.bot_mul_bot, EReal.top_mul_top]
  | coe a =>
    induction y using EReal.rec with
    | bot => rw [EReal.bot_sub, EReal.coe_sub_bot, EReal.bot_mul_bot, EReal.top_mul_top]
    | coe b =>
      rw [← EReal.coe_sub, ← EReal.coe_sub, ← EReal.coe_mul, ← EReal.coe_mul]
      congr 1
      ring
    | top => rw [EReal.sub_top, EReal.top_sub_coe, EReal.bot_mul_bot, EReal.top_mul_top]
  | top =>
    induction y using EReal.rec with
    | bot => rw [EReal.bot_sub, EReal.top_sub_bot, EReal.bot_mul_bot, EReal.top_mul_top]
    | coe b => rw [EReal.sub_top, EReal.top_sub_coe, EReal.bot_mul_bot, EReal.top_mul_top]
    | top => rfl

/-- The square of an extended real is never negative: the two infinities square to the top element. -/
theorem mul_self_nonneg_ereal (z : EReal) : 0 ≤ z * z := by
  induction z using EReal.rec with
  | bot => rw [EReal.bot_mul_bot]; exact le_top
  | coe r => rw [← EReal.coe_mul]; exact EReal.coe_nonneg.mpr (mul_self_nonneg r)
  | top => rw [EReal.top_mul_top]; exact le_top

/-- A squared difference is never negative. -/
theorem sqd_nonneg (x y : EReal) : 0 ≤ sqd x y := by
  unfold sqd
  exact mul_self_nonneg_ereal (x - y)

/-- The squared distance between point `n1` of cloud `a` and point `n2` of cloud `b` in batch `bb`: the three
    coordinates' squared differences (second cloud minus first) added to zero in order. -/
def d2 (a b : SPts.Idx → EReal) (bb : Fin 4) (n1 n2 : Fin 4096) : EReal :=
  ((0 + sqd (b (ix3 bb n2 0)) (a (ix3 bb n1 0))) + sqd (b (ix3 bb n2 1)) (a (ix3 bb n1 1)))
    + sqd (b (ix3 bb n2 2)) (a (ix3 bb n1 2))

theorem d2_nonneg (a b : SPts.Idx → EReal) (bb : Fin 4) (n1 n2 : Fin 4096) : 0 ≤ d2 a b bb n1 n2 := by
  unfold d2
  exact add_nonneg (add_nonneg (add_nonneg le_rfl (sqd_nonneg _ _)) (sqd_nonneg _ _)) (sqd_nonneg _ _)

/-! ## The clamp at zero followed by the root -/

/-- What is applied to a finished least squared distance: clamp at zero, then the square root. -/
def rootOf (x : EReal) : EReal := Ideal.sqrt (max x 0)

/-- The root is monotone on all extended reals: below zero it is the bottom element, from zero on it is the
    real root, and the top element goes to itself. -/
theorem sqrt_mono {x y : EReal} (h : x ≤ y) : Ideal.sqrt x ≤ Ideal.sqrt y := by
  induction y using EReal.rec with
  | bot => rw [le_bot_iff.mp h]
  | top => rw [Ideal.sqrt_top]; exact le_top
  | coe b =>
    induction x using EReal.rec with
    | bot => rw [Ideal.sqrt_bot]; exact bot_le
    | top => exact absurd (top_le_iff.mp h) (EReal.coe_ne_top b)
    | coe a =>
      have hab : a ≤ b := EReal.coe_le_coe_iff.mp h
      rw [Ideal.sqrt_coe, Ideal.sqrt_coe]
      by_cases ha : a < 0
      · rw [if_pos ha]; exact bot_le
      · rw [if_neg ha, if_neg (not_lt.mpr (le_trans (not_lt.mp ha) hab))]
        exact EReal.coe_le_coe_iff.mpr (Real.sqrt_le_sqrt hab)

theorem rootOf_mono : Monotone rootOf := by
  intro x y hxy
  unfold rootOf
  exact sqrt_mono (max_le_max hxy le_rfl)

theorem rootOf_top : rootOf ⊤ = ⊤ := by
  unfold rootOf
  rw [max_eq_left le_top, Ideal.sqrt_top]

theorem rootOf_of_nonneg {x : EReal} (h : 0 ≤ x) : rootOf x = Ideal.sqrt x := by
  unfold rootOf
  rw [max_eq_left h]

/-- The clamped root of a least element over a finite family (from the top element) is the least of the clamped roots. -/
theorem rootOf_fold_min {ι : Type} (s : Finset ι) (f : ι → EReal) :
    rootOf (s.fold min ⊤ f) = s.fold min ⊤ (fun k => rootOf (f k)) := by
  have h := Finset.fold_hom (s := s) (op := (min : EReal → EReal → EReal)) (op' := (min : EReal → EReal → EReal))
    (b := (⊤ : EReal)) (f := f) (m := rootOf) (fun x y => rootOf_mono.map_min)
  rw [rootOf_top] at h
  exact h.symm

/-- The distance as the other program spells it: first cloud minus second, the three squares summed over the
    coordinate and added to zero, then the root. -/
def refD (a b : SPts.Idx → EReal) (bb : Fin 4) (n1 n2 : Fin 4096) : EReal :=
  Ideal.sqrt (0 + ∑ d : Fin 3, (a (ix3 bb n1 d) - b (ix3 bb n2 d)) * (a (ix3 bb n1 d) - b (ix3 bb n2 d)))

/-- The clamped root of the squared distance is that distance. -/
theorem rootOf_d2 (a b : SPts.Idx → EReal) (bb : Fin 4) (n1 n2 : Fin 4096) :
    rootOf (d2 a b bb n1 n2) = refD a b bb n1 n2 := by
  rw [rootOf_of_nonneg (d2_nonneg a b bb n1 n2)]
  unfold d2 refD
  rw [Fin.sum_univ_three, sqd_comm (b (ix3 bb n2 0)), sqd_comm (b (ix3 bb n2 1)), sqd_comm (b (ix3 bb n2 2))]
  unfold sqd
  rw [add_assoc, add_assoc, ← add_assoc (_ * _)]

/-! ## The two families of least distances, in both spellings -/

/-- Least squared distance from point `n1` of `a` to the cloud `b`, clamped and rooted. -/
def rowAt (a b : SPts.Idx → EReal) (bb : Fin 4) (n1 : Fin 4096) : EReal :=
  rootOf (Finset.univ.fold min ⊤ (fun n2 : Fin 4096 => d2 a b bb n1 n2))

/-- Least squared distance from point `n2` of `b` to the cloud `a`, clamped and rooted. -/
def colAt (a b : SPts.Idx → EReal) (bb : Fin 4) (n2 : Fin 4096) : EReal :=
  rootOf (Finset.univ.fold min ⊤ (fun n1 : Fin 4096 => d2 a b bb n1 n2))

/-- Least distance from point `n1` of `a` to the cloud `b`. -/
def refRowAt (a b : SPts.Idx → EReal) (bb : Fin 4) (n1 : Fin 4096) : EReal :=
  Finset.univ.fold min ⊤ (fun n2 : Fin 4096 => refD a b bb n1 n2)

/-- Least distance from point `n2` of `b` to the cloud `a`. -/
def refColAt (a b : SPts.Idx → EReal) (bb : Fin 4) (n2 : Fin 4096) : EReal :=
  Finset.univ.fold min ⊤ (fun n1 : Fin 4096 => refD a b bb n1 n2)

theorem rowAt_eq_refRowAt (a b : SPts.Idx → EReal) (bb : Fin 4) (n1 : Fin 4096) : rowAt a b bb n1 = refRowAt a b bb n1 := by
  unfold rowAt refRowAt
  rw [rootOf_fold_min]
  simp only [rootOf_d2]

theorem colAt_eq_refColAt (a b : SPts.Idx → EReal) (bb : Fin 4) (n2 : Fin 4096) : colAt a b bb n2 = refColAt a b bb n2 := by
  unfold colAt refColAt
  rw [rootOf_fold_min]
  simp only [rootOf_d2]

/-- The families as arrays over (batch, point). -/
def rowOut (a b : SPts.Idx → EReal) : FVec Ideal SMin .f32 := fun j => rowAt a b (j 0) (j 1)
def colOut (a b : SPts.Idx → EReal) : FVec Ideal SMin .f32 := fun j => colAt a b (j 0) (j 1)
def refRow (a b : SPts.Idx → EReal) : FVec Ideal SMin .f32 := fun j => refRowAt a b (j 0) (j 1)
def refCol (a b : SPts.Idx → EReal) : FVec Ideal SMin .f32 := fun j => refColAt a b (j 0) (j 1)

theorem rowOut_eq_refRow (a b : SPts.Idx → EReal) : rowOut a b = refRow a b :=
  funext fun j => rowAt_eq_refRowAt a b (j 0) (j 1)

theorem colOut_eq_refCol (a b : SPts.Idx → EReal) : colOut a b = refCol a b :=
  funext fun j => colAt_eq_refColAt a b (j 0) (j 1)

/-! ## What both programs do with the two families -/

/-- Per batch the two families' sums (each from zero) added and divided by 8192; those four numbers summed from zero
    and divided by 4.  Never opened: both programs apply it to equal arguments. -/
def tail (h1 : SMin.ReducesTo [1] SBat) (h0 : 0 < SSca.numel)
    (hb : SSca.BroadcastsInDim SBat (![] : Fin 0 → Fin SBat.rank)) (h2 : SBat.ReducesTo [0] SSca)
    (r c : FVec Ideal SMin .f32) : FVec Ideal SSca .f32 :=
  Host.divf (F := Ideal)
    (Host.reduceAdd (F := Ideal)
      (Host.divf (F := Ideal)
        (addf (Host.reduceAdd (F := Ideal) r (constant (F := Ideal) SSca .f32 0x00000000#32) h1 h0)
          (Host.reduceAdd (F := Ideal) c (constant (F := Ideal) SSca .f32 0x00000000#32) h1 h0))
        (broadcastInDim SBat ![] hb (constant (F := Ideal) SSca .f32 0x46000000#32)))
      (constant (F := Ideal) SSca .f32 0x00000000#32) h2 h0)
    (constant (F := Ideal) SSca .f32 0x40800000#32)

/-! ## Least elements over part of an index set -/

section Fold

variable {ι : Type}

/-- A lower bound of the least element over the indices satisfying `P` is a lower bound of each of them. -/
theorem le_foldMin_filter_iff (s : Finset ι) (f : ι → EReal) (P : ι → Prop) [DecidablePred P] (x : EReal) :
    x ≤ (s.filter P).fold min ⊤ f ↔ ∀ n ∈ s, P n → x ≤ f n := by
  rw [Finset.le_fold_min]
  constructor
  · intro h n hn hP
    exact h.2 n (Finset.mem_filter.mpr ⟨hn, hP⟩)
  · intro h
    refine ⟨le_top, fun n hn => ?_⟩
    have hm := Finset.mem_filter.mp hn
    exact h n hm.1 hm.2

/-- Along a disjunction the least element splits. -/
theorem foldMin_filter_or (s : Finset ι) (f : ι → EReal) (P Q R : ι → Prop) [DecidablePred P] [DecidablePred Q]
    [DecidablePred R] (h : ∀ n, P n ↔ Q n ∨ R n) :
    (s.filter P).fold min ⊤ f = min ((s.filter Q).fold min ⊤ f) ((s.filter R).fold min ⊤ f) := by
  refine eq_of_forall_le_iff fun x => ?_
  rw [le_min_iff, le_foldMin_filter_iff, le_foldMin_filter_iff, le_foldMin_filter_iff]
  constructor
  · intro hP
    exact ⟨fun n hn hQ => hP n hn ((h n).mpr (Or.inl hQ)), fun n hn hR => hP n hn ((h n).mpr (Or.inr hR))⟩
  · intro hQR n hn hPn
    rcases (h n).mp hPn with hQ | hR
    · exact hQR.1 n hn hQ
    · exact hQR.2 n hn hR

/-- Over no index the least element is the top. -/
theorem foldMin_filter_none (s : Finset ι) (f : ι → EReal) (P : ι → Prop) [DecidablePred P] (h : ∀ n, ¬P n) :
    (s.filter P).fold min ⊤ f = ⊤ := by
  refine eq_of_forall_le_iff fun x => ?_
  rw [le_foldMin_filter_iff]
  constructor
  · intro _
    exact le_top
  · intro _ n _ hP
    exact absurd hP (h n)

/-- Over every index it is the least element of the whole family. -/
theorem foldMin_filter_all (s : Finset ι) (f : ι → EReal) (P : ι → Prop) [DecidablePred P] (h : ∀ n, P n) :
    (s.filter P).fold min ⊤ f = s.fold min ⊤ f := by
  refine eq_of_forall_le_iff fun x => ?_
  rw [le_foldMin_filter_iff, Finset.le_fold_min]
  constructor
  · intro hP
    exact ⟨le_top, fun n hn => hP n hn (h n)⟩
  · intro hs n hn _
    exact hs.2 n hn

/-- Equivalent predicates select the same least element. -/
theorem foldMin_filter_congr (s : Finset ι) (f : ι → EReal) (P Q : ι → Prop) [DecidablePred P] [DecidablePred Q]
    (h : ∀ n, P n ↔ Q n) : (s.filter P).fold min ⊤ f = (s.filter Q).fold min ⊤ f := by
  refine eq_of_forall_le_iff fun x => ?_
  rw [le_foldMin_filter_iff, le_foldMin_filter_iff]
  constructor
  · intro hP n hn hQ
    exact hP n hn ((h n).mpr hQ)
  · intro hQ n hn hPn
    exact hQ n hn ((h n).mp hPn)

end Fold

/-- The least element over tile `J` of 512 consecutive indices of `Fin 4096`, as a least element over `Fin 512` through
    any enumeration `g` of the tile. -/
theorem foldMin_filter_tile (f : Fin 4096 → EReal) (J : ℕ) (g : Fin 512 → Fin 4096)
    (hg : ∀ p, (g p).val = 512 * J + p.val) :
    (Finset.univ.filter (fun n : Fin 4096 => n.val / 512 = J)).fold min ⊤ f
      = Finset.univ.fold min ⊤ (fun p : Fin 512 => f (g p)) := by
  refine eq_of_forall_le_iff fun x => ?_
  rw [le_foldMin_filter_iff, Finset.le_fold_min]
  constructor
  · -- every enumerated index lies in the tile
    intro hJ
    refine ⟨le_top, fun p _ => hJ (g p) (Finset.mem_univ _) ?_⟩
    have hp := hg p
    have hlt := p.isLt
    omega
  · -- every index of the tile is the enumeration of its offset inside the tile
    intro hp n _ hn
    have hlt : n.val % 512 < 512 := Nat.mod_lt _ (by norm_num)
    have hgn : g ⟨n.val % 512, hlt⟩ = n := by
      apply Fin.ext
      rw [hg]
      show 512 * J + n.val % 512 = n.val
      have := Nat.div_add_mod n.val 512
      omega
    have := hp.2 ⟨n.val % 512, hlt⟩ (Finset.mem_univ _)
    rw [hgn] at this
    exact this

end Cert.Chamfer

end
-- ==== Proof.LibMinReduce.lean ====
/-
  A float `vector.multi_reduction <minimumf>` over ONE axis, read at the ideal values: at each kept index it is the
  fold of `min`, from the accumulator's value, over that axis's coordinates (the companion of the library's reading
  of `<maximumf>`). Any rank, axis and extents.
-/
import Idealize.ShloMosaic.PureOps.Ideal.Laws

namespace Idealize.ShloMosaic.Ideal

variable {φ : FTy}

theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Payload.lean ====
/-
  The arithmetic of one tile, read entry by entry at the ideal values.

  A tile pairs 512 points of the second cloud (rows `p`) with 512 points of the first (columns `q`).  Its matrix of
  squared distances (`tileD2`) is built from three column-against-row differences, squared and added to zero in
  order.  Its column minima (over `p`, one per `q`) feed the running minimum of the first cloud's points; its row
  minima (over `q`, one per `p`) feed the running minimum of the second cloud's points.  The other stored values are
  a fill of plus infinity, an entrywise minimum of a running value with a tile's minima, and the clamp at zero
  followed by the square root.
-/
import proofs.«135613_j17952963297894_1_alg».proof.Proof.Gen.KernelIdeal.Skeleton
import proofs.«135613_j17952963297894_1_alg».proof.Proof.Spec
import proofs.«135613_j17952963297894_1_alg».proof.Proof.LibMinReduce
import Idealize.ShloMosaic.Lib.Pipeline.Value
import Idealize.ShloMosaic.Lib.ValueLayout
import Idealize.ShloMosaic.Lib.ValueIdx

noncomputable section

open Idealize.ShloMosaic Idealize.ShloMosaic.ValueIdx

namespace Cert.KernelIdeal.Pay

open Cert.KernelIdeal Cert.KernelIdeal.Gen Cert.Chamfer

/-- Squared distance between row `p` of the second cloud's tile `x1` and row `q` of the first cloud's tile `x0`. -/
def tileD2 (x0 x1 : FVec Ideal S1x512x3 .f32) (p q : Fin 512) : EReal :=
  ((0 + sqd (x1 (ix3 0 p 0)) (x0 (ix3 0 q 0))) + sqd (x1 (ix3 0 p 1)) (x0 (ix3 0 q 1)))
    + sqd (x1 (ix3 0 p 2)) (x0 (ix3 0 q 2))

section Layout
variable {α : Type}

/-- A tile with its leading unit axis dropped reads, at (p, d), the tile at (0, p, d). -/
theorem tile_apply (v : S1x512x3.Idx → α) (h : S1x512x3.ShapeCasts S512x3) (p : Fin 512) (d : Fin 3) :
    shapeCast S512x3 v h (ix2 p d) = v (ix3 0 p d) :=
  shapeCast_1ab_ab_apply v h p d

/-- Column `d` of a 512 × 3 matrix, taken as a vector and back as a column, spread along the rows of a 512 × 512
    matrix: entry (p, q) is the matrix at (p, d). -/
theorem col_spread_apply (d : Nat) (hd : d < 3) (v3 : S512x3.Idx → α) (hs : S512x3.Slices ![0, d] S512x1)
    (h1 : S512x1.ShapeCasts S512) (h2 : S512.ShapeCasts S512x1) (hb : S512x1.Broadcasts S512x512) (p q : Fin 512) :
    broadcastTo S512x512 (shapeCast S512x1 (shapeCast S512 (extractStridedSlice S512x1 ![0, d] v3 hs) h1) h2) hb (ix2 p q)
      = v3 (ix2 p ⟨d, hd⟩) := by
  -- the cast to a vector and back is the identity
  rw [shapeCast_shapeCast]
  -- the spread reads the column at (p, 0) whatever q
  refine (broadcastTo_apply _ hb (ix2 p q) (ix2 p (0 : Fin 1)) fun a => ?_).trans ?_
  · match a with
    | ⟨0, _⟩ => rfl
    | ⟨1, _⟩ => rfl
  -- and the column cut at offset d reads the matrix at column d + 0
  · exact slice2_axis1_apply d v3 hs p 0 ⟨d, hd⟩ rfl

/-- Row `d` of the transposed 512 × 3 matrix, taken as a vector and back as a row, spread down the columns of a
    512 × 512 matrix: entry (p, q) is the matrix at (q, d). -/
theorem row_spread_apply (d : Nat) (hd : d < 3) (v1 : S512x3.Idx → α) (ht : S512x3.Transposes [1, 0] S3x512)
    (hs : S3x512.Slices ![d, 0] S1x512) (h1 : S1x512.ShapeCasts S512) (h2 : S512.ShapeCasts S1x512)
    (hb : S1x512.Broadcasts S512x512) (p q : Fin 512) :
    broadcastTo S512x512 (shapeCast S1x512 (shapeCast S512 (extractStridedSlice S1x512 ![d, 0]
        (transpose S3x512 [1, 0] v1 ht) hs) h1) h2) hb (ix2 p q)
      = v1 (ix2 q ⟨d, hd⟩) := by
  -- the cast to a vector and back is the identity
  rw [shapeCast_shapeCast]
  -- the spread reads the one row at q whatever p
  refine (broadcastTo_1b_ab_apply _ hb p q).trans ?_
  -- the row cut at offset d reads the transposed matrix at row d + 0
  refine (slice2_axis0_apply d _ hs (0 : Fin 1) q ⟨d, hd⟩ rfl).trans ?_
  -- and the transposed matrix at (d, q) is the matrix at (q, d)
  exact transpose_ix2_apply v1 ht ⟨d, hd⟩ q

end Layout

/-- The tile's matrix of squared distances, entry (p, q). -/
theorem pay7_apply (x0 x1 : FVec Ideal S1x512x3 .f32) (p q : Fin 512) :
    k0_pay7 (F := Ideal) x0 x1 (ix2 p q) = tileD2 x0 x1 p q := by
  unfold k0_pay7
  -- the sums, products and differences read entry by entry; the zero fill reads its scalar
  simp only [addf_apply, mulf_apply, subf_apply, broadcast_apply]
  -- each spread column is the second tile at (p, d), each spread row the first tile at (q, d)
  rw [col_spread_apply 0 (by omega), col_spread_apply 1 (by omega), col_spread_apply 2 (by omega),
    row_spread_apply 0 (by omega), row_spread_apply 1 (by omega), row_spread_apply 2 (by omega)]
  simp only [tile_apply, Ideal.ofBits_def, Ideal.ofBits_zero_f32]
  rfl

section Reduce

/-- Over a kept column `q`, the index with row `p` inserted on the reduced axis 0 is (p, q). -/
theorem lift_axis0 (h : S512x512.Reduces [0] S512) (q p : Fin 512) : h.lift (ix1 q) p = ix2 p q := by
  funext a
  match a with
  | ⟨0, _⟩ => rfl
  | ⟨1, _⟩ => rfl

/-- Over a kept row `p`, the index with column `q` inserted on the reduced axis 1 is (p, q). -/
theorem lift_axis1 (h : S512x512.Reduces [1] S512) (p q : Fin 512) : h.lift (ix1 p) q = ix2 p q := by
  funext a
  match a with
  | ⟨0, _⟩ => rfl
  | ⟨1, _⟩ => rfl

/-- A 512-vector cast to a 512 × 1 column reads, at (p, u), the vector at p: both have row-major position p. -/
theorem shapeCast_a_a1_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The least element of any matrix `f` down column `q`, taken through the inserted row, is the least of
    `f (p, q)` over the rows `p`. -/
theorem fold_lift0 (f : S512x512.Idx → EReal) (h : S512x512.Reduces [0] S512) (q : Fin 512) :
    Finset.fold min (⊤ : EReal) (f ∘ h.lift (ix1 q)) Finset.univ
      = Finset.fold min (⊤ : EReal) (fun p : Fin 512 => f (ix2 p q)) Finset.univ :=
  Finset.fold_congr fun p _ => congrArg f (lift_axis0 h q p)

/-- The least element of any matrix `f` along row `p`, taken through the inserted column, is the least of
    `f (p, q)` over the columns `q`. -/
theorem fold_lift1 (f : S512x512.Idx → EReal) (h : S512x512.Reduces [1] S512) (p : Fin 512) :
    Finset.fold min (⊤ : EReal) (f ∘ h.lift (ix1 p)) Finset.univ
      = Finset.fold min (⊤ : EReal) (fun q : Fin 512 => f (ix2 p q)) Finset.univ :=
  Finset.fold_congr fun q _ => congrArg f (lift_axis1 h p q)

end Reduce

/-- Column minima: for each `q` the least entry over `p`. -/
theorem pay8_apply (x0 x1 : FVec Ideal S1x512x3 .f32) (q : Fin 512) :
    k0_pay8 (F := Ideal) x0 x1 (ix2 0 q) = Finset.univ.fold min ⊤ (fun p : Fin 512 => tileD2 x0 x1 p q) := by
  unfold k0_pay8
  -- the row layout reads the vector of minima at q
  refine (shapeCast_a_1a_apply _ _ 0 q).trans ?_
  -- the reduction over axis 0 is the fold of min from the accumulator's value, plus infinity
  refine (Ideal.multiReduction_minimumf_single _ _ _ _ _ (ix1 q)).trans ?_
  rw [Ideal.ofBits_def, ofBits_inf_f32]
  refine (fold_lift0 _ _ q).trans ?_
  simp only [pay7_apply]

/-- Row minima: for each `p` the least entry over `q`, laid out as a row. -/
theorem pay9_apply (x0 x1 : FVec Ideal S1x512x3 .f32) (p : Fin 512) :
    k0_pay9 (F := Ideal) x0 x1 (ix2 0 p) = Finset.univ.fold min ⊤ (fun q : Fin 512 => tileD2 x0 x1 p q) := by
  unfold k0_pay9
  -- the transposed column reads the column at (p, 0), which reads the vector of minima at p
  refine (transpose_ix2_apply _ _ 0 p).trans ?_
  refine (shapeCast_a_a1_apply _ _ p 0).trans ?_
  -- the reduction over axis 1 is the fold of min from the accumulator's value, plus infinity
  refine (Ideal.multiReduction_minimumf_single _ _ _ _ _ (ix1 p)).trans ?_
  rw [Ideal.ofBits_def, ofBits_inf_f32]
  refine (fold_lift1 _ _ p).trans ?_
  simp only [pay7_apply]

/-- The fill of plus infinity, 512 wide. -/
theorem pay1_apply (j : S1x512.Idx) : k0_pay1 (F := Ideal) j = ⊤ := by
  unfold k0_pay1
  simp only [shapeCast_self, broadcast_apply, Ideal.ofBits_def, ofBits_inf_f32]

/-- The fill of plus infinity, 4096 wide. -/
theorem pay3_apply (j : S1x4096.Idx) : k0_pay3 (F := Ideal) j = ⊤ := by
  unfold k0_pay3
  simp only [shapeCast_self, broadcast_apply, Ideal.ofBits_def, ofBits_inf_f32]

/-- A running value met with a tile's column minima. -/
theorem pay2_apply (v40 v47 : FVec Ideal S1x512 .f32) (j : S1x512.Idx) :
    k0_pay2 (F := Ideal) v40 v47 j = min (v47 j) (v40 j) := by
  unfold k0_pay2
  simp only [shapeCast_self, minimumf_apply]

/-- A running value met with a tile's row minima. -/
theorem pay4_apply (v43 v60 : FVec Ideal S1x512 .f32) (j : S1x512.Idx) :
    k0_pay4 (F := Ideal) v43 v60 j = min (v60 j) (v43 j) := by
  unfold k0_pay4
  simp only [shapeCast_self, minimumf_apply]

/-- The root of a vector reads, at an index, the root of the element. -/
theorem sqrt_apply {s : Shape} {φ : FTy} (a : FVec Ideal s φ) (i : s.Idx) : sqrt a i = Ideal.sqrt (a i) := rfl

/-- The clamp at zero and the root, 512 wide, under a leading unit axis. -/
theorem pay5_apply (v : FVec Ideal S1x512 .f32) (q : Fin 512) :
    k0_pay5 (F := Ideal) v (ix3 0 0 q) = rootOf (v (ix2 0 q)) := by
  unfold k0_pay5
  -- under the added unit axis the entry (0, 0, q) is the entry (0, q)
  refine (shapeCast_ab_1ab_apply _ _ 0 0 q).trans ?_
  simp only [sqrt_apply, maximumf_apply, broadcast_apply, Ideal.ofBits_def, Ideal.ofBits_zero_f32]
  rfl

/-- The clamp at zero and the root, 4096 wide, under a leading unit axis. -/
theorem pay6_apply (v : FVec Ideal S1x4096 .f32) (n : Fin 4096) :
    k0_pay6 (F := Ideal) v (ix3 0 0 n) = rootOf (v (ix2 0 n)) := by
  unfold k0_pay6
  -- under the added unit axis the entry (0, 0, n) is the entry (0, n)
  refine (shapeCast_ab_1ab_apply _ _ 0 0 n).trans ?_
  simp only [sqrt_apply, maximumf_apply, broadcast_apply, Ideal.ofBits_def, Ideal.ofBits_zero_f32]
  rfl

end Cert.KernelIdeal.Pay

end
-- ==== Proof.KernelArrays.lean ====
/-
  From what each grid point leaves to the two result arrays, and on through the host operations after the region.

  A grid point is (batch, tile of the first cloud, tile of the second cloud), numbered 64·batch + 8·i + j.  The first
  cloud's window shows rows 512·i … of batch `batch`, the second cloud's rows 512·j ….  The first result's window is
  written back at the last `j` of each (batch, i) and covers columns 512·i … of row `batch`; the second result's
  window is written back at the last point of each batch and covers the whole row `batch`.  So if what those points
  leave is, entry by entry, one function of (batch, column), the array after the run is that function; the host
  operations after the region then drop the unit axis of both arrays and average them (`Cert.Chamfer.tail`).
-/
import proofs.«135613_j17952963297894_1_alg».proof.Proof.Gen.KernelIdeal.Frame
import proofs.«135613_j17952963297894_1_alg».proof.Proof.Spec
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.Chamfer

variable (m : (ℓ : Loc nD τ sig) → Buf (Elt Ideal) ℓ) (ρ : Dev nD → PrngReg)

/-- The first cloud as the region finds it. -/
abbrev cloudA (c : Dev nD) : FVec Ideal S4x4096x3 .f32 := V m c main_arg0
/-- The second cloud as the region finds it. -/
abbrev cloudB (c : Dev nD) : FVec Ideal S4x4096x3 .f32 := V m c main_arg1
/-- The first cloud's tile at a point. -/
abbrev tileA (c : Dev nD) (t : Fin cfg0.N) : FVec Ideal S1x512x3 .f32 := iblk m c 0 t
/-- The second cloud's tile at a point. -/
abbrev tileB (c : Dev nD) (t : Fin cfg0.N) : FVec Ideal S1x512x3 .f32 := iblk m c 1 t

theorem cloudA_eq (c : Dev nD) : cloudA m c = m ((c : Thread nD τ).loc main_arg0) := V_main_arg0 m c
theorem cloudB_eq (c : Dev nD) : cloudB m c = m ((c : Thread nD τ).loc main_arg1) := V_main_arg1 m c

/-- The block indices of the four windows, decided over the grid: at point t = 64·batch + 8·i + j the first cloud's
    window sits at (batch, i, 0), the second cloud's at (batch, j, 0), the first result's at (batch, 0, i), the
    second result's at (batch, 0, 0). -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = 0 ∧ win0_2.index t (2 : Fin 3) = t.val / 8 % 8
    ∧ win0_3.index t (0 : Fin 3) = t.val / 64 ∧ win0_3.index t (1 : Fin 3) = 0 ∧ win0_3.index t (2 : Fin 3) = 0 :=
  (by decide +kernel : ∀ t : Fin grid0.N, _)

/-- No window's block is cut at its array's end: at every point the moved sizes of the two results' blocks are the
    blocks' own. -/
theorem xsize_facts : ∀ t : Fin cfg0.N,
    win0_2.xsize (grid0.coords t) (0 : Fin 3) = 1 ∧ win0_2.xsize (grid0.coords t) (1 : Fin 3) = 1 ∧ win0_2.xsize (grid0.coords t) (2 : Fin 3) = 512
    ∧ win0_3.xsize (grid0.coords t) (0 : Fin 3) = 1 ∧ win0_3.xsize (grid0.coords t) (1 : Fin 3) = 1 ∧ win0_3.xsize (grid0.coords t) (2 : Fin 3) = 4096 :=
  (by decide +kernel : ∀ t : Fin grid0.N, _)

/-- Row `q` of the first cloud's tile at point `t` is row 512·(t/8 mod 8) + q of batch t/64. -/
theorem tileA_apply (c : Dev nD) (t : Fin cfg0.N) (q : Fin 512) (d : Fin 3) (bb : Fin 4) (n1 : Fin 4096)
    (hb : bb.val = t.val / 64) (hn : n1.val = 512 * (t.val / 8 % 8) + q.val) :
    tileA m c t (ix3 0 q d) = cloudA m c (ix3 bb n1 d) := by
  obtain ⟨e0, e1, e2, -⟩ := idx_facts t
  show iblk m c 0 t (ix3 0 q d) = V m c main_arg0 (ix3 bb n1 d)
  unfold iblk
  rw [View.read_apply]
  show V m c main_arg0 _ = V m c main_arg0 _
  congr 1
  funext a; apply Fin.ext
  match a with
  | ⟨0, _⟩ => show win0_0.index t (0 : Fin 3) * 1 + 1 * 0 = bb.val; omega
  | ⟨1, _⟩ => show win0_0.index t (1 : Fin 3) * 512 + 1 * q.val = n1.val; omega
  | ⟨2, _⟩ => show win0_0.index t (2 : Fin 3) * 3 + 1 * d.val = d.val; omega

/-- Row `p` of the second cloud's tile at point `t` is row 512·(t mod 8) + p of batch t/64. -/
theorem tileB_apply (c : Dev nD) (t : Fin cfg0.N) (p : Fin 512) (d : Fin 3) (bb : Fin 4) (n2 : Fin 4096)
    (hb : bb.val = t.val / 64) (hn : n2.val = 512 * (t.val % 8) + p.val) :
    tileB m c t (ix3 0 p d) = cloudB m c (ix3 bb n2 d) := by
  obtain ⟨-, -, -, e0, e1, e2, -⟩ := idx_facts t
  show iblk m c 1 t (ix3 0 p d) = V m c main_arg1 (ix3 bb n2 d)
  unfold iblk
  rw [View.read_apply]
  show V m c main_arg1 _ = V m c main_arg1 _
  congr 1
  funext a; apply Fin.ext
  match a with
  | ⟨0, _⟩ => show win0_1.index t (0 : Fin 3) * 1 + 1 * 0 = bb.val; omega
  | ⟨1, _⟩ => show win0_1.index t (1 : Fin 3) * 512 + 1 * p.val = n2.val; omega
  | ⟨2, _⟩ => show win0_1.index t (2 : Fin 3) * 3 + 1 * d.val = d.val; omega

/-- The first result array after the run, from what the points that write it back leave. -/
theorem arr2_eq (c : Dev nD) (G : Buf (Elt Ideal) ((c : Thread nD τ).loc main_v0_0))
    (h : ∀ t : Fin cfg0.N, t.val % 8 = 7 → ∀ (q : Fin 512) (bb : Fin 4) (n : Fin 4096), bb.val = t.val / 64 →
      n.val = 512 * (t.val / 8 % 8) + q.val → (outsAt0 m c t.val t.isLt).1 (ix3 0 0 q) = G (ix3 bb 0 n)) :
    (dats m 0 c).arrAt 2 cfg0.N = G := by
  have hN : cfg0.N = 256 := N_0
  refine (dats m 0 c).arrAt_eq_of_cover 2 G (fun t hf => ?_) (fun i => ?_)
  · show (cfg0.win 2).cut (grid0.coords t) ((dats m 0 c).after 2 t) = _
    rw [after0_2]
    have h7 : t.val % 8 = 7 := (flush0_2 t).mp hf
    have ht : t.val < 256 := lt_of_lt_of_eq t.isLt hN
    obtain ⟨-, -, -, -, -, -, e0, e1, e2, -⟩ := idx_facts t
    obtain ⟨x0, x1, x2, -⟩ := xsize_facts t
    funext j
    rw [View.read_apply]
    have hj0 : (j 0).val < 1 := lt_of_lt_of_eq (j 0).isLt x0
    have hj1 : (j 1).val < 1 := lt_of_lt_of_eq (j 1).isLt x1
    have hj2 : (j 2).val < 512 := lt_of_lt_of_eq (j 2).isLt x2
    have hx : win0_2.xinj (grid0.coords t) j = ix3 0 0 ⟨(j 2).val, hj2⟩ := by
      funext a; apply Fin.ext
      match a with
      | ⟨0, _⟩ => show (j 0).val = 0; omega
      | ⟨1, _⟩ => show (j 1).val = 0; omega
      | ⟨2, _⟩ => rfl
    show (outsAt0 m c t.val t.isLt).1 (win0_2.xinj (grid0.coords t) j) = G (((cfg0.win 2).blk t).view.emb j)
    rw [hx]
    refine (h t h7 ⟨(j 2).val, hj2⟩ ⟨t.val / 64, by omega⟩ ⟨512 * (t.val / 8 % 8) + (j 2).val, by omega⟩ rfl rfl).trans ?_
    congr 1
    funext a; apply Fin.ext
    match a with
    | ⟨0, _⟩ => show t.val / 64 = win0_2.index t (0 : Fin 3) * 1 + 1 * (j 0).val; omega
    | ⟨1, _⟩ => show 0 = win0_2.index t (1 : Fin 3) * 1 + 1 * (j 1).val; omega
    | ⟨2, _⟩ => show 512 * (t.val / 8 % 8) + (j 2).val = win0_2.index t (2 : Fin 3) * 512 + 1 * (j 2).val; omega
  · have hi0 : (i 0 : Nat) < 4 := (i 0).isLt
    have hi1 : (i 1 : Nat) < 1 := (i 1).isLt
    have hi2 : (i 2 : Nat) < 4096 := (i 2).isLt
    obtain ⟨t, ht⟩ : ∃ t : Fin cfg0.N, t.val = 64 * (i 0 : Nat) + 8 * ((i 2 : Nat) / 512) + 7 :=
      ⟨⟨64 * (i 0 : Nat) + 8 * ((i 2 : Nat) / 512) + 7, by rw [hN]; omega⟩, rfl⟩
    obtain ⟨-, -, -, -, -, -, e0, e1, e2, -⟩ := idx_facts t
    obtain ⟨x0, x1, x2, -⟩ := xsize_facts t
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t (0 : Fin 3) * 1 ≤ (i 0 : Nat) ∧ (i 0 : Nat) < win0_2.index t (0 : Fin 3) * 1 + win0_2.xsize (grid0.coords t) (0 : Fin 3); omega
    | ⟨1, _⟩ => show win0_2.index t (1 : Fin 3) * 1 ≤ (i 1 : Nat) ∧ (i 1 : Nat) < win0_2.index t (1 : Fin 3) * 1 + win0_2.xsize (grid0.coords t) (1 : Fin 3); omega
    | ⟨2, _⟩ => show win0_2.index t (2 : Fin 3) * 512 ≤ (i 2 : Nat) ∧ (i 2 : Nat) < win0_2.index t (2 : Fin 3) * 512 + win0_2.xsize (grid0.coords t) (2 : Fin 3); omega

/-- The second result array after the run, from what the points that write it back leave. -/
theorem arr3_eq (c : Dev nD) (G : Buf (Elt Ideal) ((c : Thread nD τ).loc main_v0_1))
    (h : ∀ t : Fin cfg0.N, t.val % 64 = 63 → ∀ (n : Fin 4096) (bb : Fin 4), bb.val = t.val / 64 →
      (outsAt0 m c t.val t.isLt).2.1 (ix3 0 0 n) = G (ix3 bb 0 n)) :
    (dats m 0 c).arrAt 3 cfg0.N = G := by
  have hN : cfg0.N = 256 := N_0
  refine (dats m 0 c).arrAt_eq_of_cover 3 G (fun t hf => ?_) (fun i => ?_)
  · show (cfg0.win 3).cut (grid0.coords t) ((dats m 0 c).after 3 t) = _
    rw [after0_3]
    have h63 : t.val % 64 = 63 := (flush0_3 t).mp hf
    have ht : t.val < 256 := lt_of_lt_of_eq t.isLt hN
    obtain ⟨-, -, -, -, -, -, -, -, -, e0, e1, e2⟩ := idx_facts t
    obtain ⟨-, -, -, x0, x1, x2⟩ := xsize_facts t
    funext j
    rw [View.read_apply]
    have hj0 : (j 0).val < 1 := lt_of_lt_of_eq (j 0).isLt x0
    have hj1 : (j 1).val < 1 := lt_of_lt_of_eq (j 1).isLt x1
    have hj2 : (j 2).val < 4096 := lt_of_lt_of_eq (j 2).isLt x2
    have hx : win0_3.xinj (grid0.coords t) j = ix3 0 0 ⟨(j 2).val, hj2⟩ := by
      funext a; apply Fin.ext
      match a with
      | ⟨0, _⟩ => show (j 0).val = 0; omega
      | ⟨1, _⟩ => show (j 1).val = 0; omega
      | ⟨2, _⟩ => rfl
    show (outsAt0 m c t.val t.isLt).2.1 (win0_3.xinj (grid0.coords t) j) = G (((cfg0.win 3).blk t).view.emb j)
    rw [hx]
    refine (h t h63 ⟨(j 2).val, hj2⟩ ⟨t.val / 64, by omega⟩ rfl).trans ?_
    congr 1
    funext a; apply Fin.ext
    match a with
    | ⟨0, _⟩ => show t.val / 64 = win0_3.index t (0 : Fin 3) * 1 + 1 * (j 0).val; omega
    | ⟨1, _⟩ => show 0 = win0_3.index t (1 : Fin 3) * 1 + 1 * (j 1).val; omega
    | ⟨2, _⟩ => show (j 2).val = win0_3.index t (2 : Fin 3) * 4096 + 1 * (j 2).val; omega
  · have hi0 : (i 0 : Nat) < 4 := (i 0).isLt
    have hi1 : (i 1 : Nat) < 1 := (i 1).isLt
    have hi2 : (i 2 : Nat) < 4096 := (i 2).isLt
    obtain ⟨t, ht⟩ : ∃ t : Fin cfg0.N, t.val = 64 * (i 0 : Nat) + 63 :=
      ⟨⟨64 * (i 0 : Nat) + 63, by rw [hN]; omega⟩, rfl⟩
    obtain ⟨-, -, -, -, -, -, -, -, -, e0, e1, e2⟩ := idx_facts t
    obtain ⟨-, -, -, x0, x1, x2⟩ := xsize_facts t
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t (0 : Fin 3) * 1 ≤ (i 0 : Nat) ∧ (i 0 : Nat) < win0_3.index t (0 : Fin 3) * 1 + win0_3.xsize (grid0.coords t) (0 : Fin 3); omega
    | ⟨1, _⟩ => show win0_3.index t (1 : Fin 3) * 1 ≤ (i 1 : Nat) ∧ (i 1 : Nat) < win0_3.index t (1 : Fin 3) * 1 + win0_3.xsize (grid0.coords t) (1 : Fin 3); omega
    | ⟨2, _⟩ => show win0_3.index t (2 : Fin 3) * 4096 ≤ (i 2 : Nat) ∧ (i 2 : Nat) < win0_3.index t (2 : Fin 3) * 4096 + win0_3.xsize (grid0.coords t) (2 : Fin 3); omega

/-- Dropping the unit axis of a result array. -/
def flat (G : FVec Ideal S4x1x4096 .f32) : FVec Ideal S4x4096 .f32 :=
  shapeCast S4x4096 G Facts₀.shapeCasts_S4x1x4096_S4x4096

theorem flat_apply (G : FVec Ideal S4x1x4096 .f32) (j : S4x4096.Idx) : flat G j = G (ix3 (j 0) 0 (j 1)) := by
  unfold flat
  refine shapeCast_apply G _ j (ix3 (j 0) 0 (j 1)) ?_
  rw [Shape.rowMajor_val_three, Shape.rowMajor_val_two]
  show ((j 0).val * 1 + 0) * 4096 + (j 1).val = (j 0).val * 4096 + (j 1).val
  omega

/-- The run, once the two result arrays are known: the host operations after the region average them. -/
theorem run_of_arrays (G2 : (c : Dev nD) → Buf (Elt Ideal) ((c : Thread nD τ).loc main_v0_0))
    (G3 : (c : Dev nD) → Buf (Elt Ideal) ((c : Thread nD τ).loc main_v0_1))
    (h2 : ∀ c, (dats m 0 c).arrAt 2 cfg0.N = G2 c) (h3 : ∀ c, (dats m 0 c).arrAt 3 cfg0.N = G3 c) :
    θ_run defs (onTc (τ := τ) (main (F := Ideal))) ⟨m, fun _ => 0, ρ⟩ fun r => ∀ c : Dev nD,
      r.2.mem ((c.tc : Thread nD τ).loc main_v9)
          = tail Facts₀.reducesTo_S4x4096_S4_d1 Facts₀.h_S_ Facts₀.bcast_S_S4 Facts₀.reducesTo_S4_S_d0 (flat (G2 c)) (flat (G3 c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v9 (Pipeline.mem_restRefs_of main_v9 rfl (by decide))).trans ?_
    unfold Pipeline.afterTail₀
    show StableHlo.after hostOps1 _ (Proc.devRef .tc main_v9) = _
    after_results
    have e2 : Pipeline.withArrays (cfgs 0).spec c (V0 m c) (fun w => (dats m 0 c).arrAt w (cfgs 0).N) (Proc.devRef .tc main_v0_0) = G2 c :=
      (Pipeline.withArrays_arr spec0 launch0.win.arr_inj c _ _ 2).trans (h2 c)
    have e3 : Pipeline.withArrays (cfgs 0).spec c (V0 m c) (fun w => (dats m 0 c).arrAt w (cfgs 0).N) (Proc.devRef .tc main_v0_1) = G3 c :=
      (Pipeline.withArrays_arr spec0 launch0.win.arr_inj c _ _ 3).trans (h3 c)
    rw [e2, e3]
    unfold tail flat
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Arr

end
-- ==== Proof.Invariant.lean ====
/-
  The two running minima after every grid point, by induction along the grid.

  Points are numbered 64·batch + 8·i + j: batch, tile `i` of the first cloud, tile `j` of the second.  After point
  `t` the first cloud's running minimum holds, for row `q` of tile `i`, the least squared distance to the second
  cloud's points in tiles 0 … j; the second cloud's running minimum holds, for every point `n2` of the second cloud,
  the least squared distance to the first cloud's points in the tiles `i'` with 8·i' + (tile of n2) ≤ 8·i + j, that is,
  over the (first tile, second tile) pairs the sweep has visited in this batch.  Both are least elements over a
  predicate on the point index, so a step of the sweep is a split of the predicate: the pairs visited before, or the
  current tile.
-/
import proofs.«135613_j17952963297894_1_alg».proof.Proof.PointValues
import proofs.«135613_j17952963297894_1_alg».proof.Proof.Payload
import proofs.«135613_j17952963297894_1_alg».proof.Proof.KernelArrays
import proofs.«135613_j17952963297894_1_alg».proof.Proof.Spec

noncomputable section

open Idealize.ShloMosaic Idealize.ShloMosaic.TcCoe Idealize.SL.Sem Idealize.ShloMosaic.ValueIdx

namespace Cert.KernelIdeal.Inv

open Cert.KernelIdeal Cert.KernelIdeal.Gen Cert.Chamfer Cert.KernelIdeal.Pay Cert.KernelIdeal.Arr

variable (m : (ℓ : Loc nD τ sig) → Buf (Elt Ideal) ℓ)

/-- The columns the second cloud's running minimum is touched on at point `t` start at 512·(t mod 8). -/
theorem off_eq : ∀ t : Fin cfg0.N, k0_off1 (grid0.coords t) = ![0, 512 * (t.val % 8)] :=
  (by decide +kernel : ∀ t : Fin grid0.N, k0_off1 (grid0.coords t) = ![0, 512 * (t.val % 8)])

theorem N_lt (t : Fin cfg0.N) : t.val < 256 := lt_of_lt_of_eq t.isLt (show cfg0.N = 256 from N_0)

/-- Point `p` of tile `J`. -/
def tileIdx (J : ℕ) (hJ : J < 8) (p : Fin 512) : Fin 4096 := ⟨512 * J + p.val, by have := p.isLt; omega⟩

/-- An entry of a tile's matrix of squared distances is the squared distance of the two points it pairs. -/
theorem tile_d2 (c : Dev nD) (t : Fin cfg0.N) (p q : Fin 512) (bb : Fin 4) (n1 n2 : Fin 4096) (hb : bb.val = t.val / 64)
    (h1 : n1.val = 512 * (t.val / 8 % 8) + q.val) (h2 : n2.val = 512 * (t.val % 8) + p.val) :
    tileD2 (tileA m c t) (tileB m c t) p q = d2 (cloudA m c) (cloudB m c) bb n1 n2 := by
  unfold tileD2 d2
  rw [tileA_apply m c t q 0 bb n1 hb h1, tileA_apply m c t q 1 bb n1 hb h1, tileA_apply m c t q 2 bb n1 hb h1,
    tileB_apply m c t p 0 bb n2 hb h2, tileB_apply m c t p 1 bb n2 hb h2, tileB_apply m c t p 2 bb n2 hb h2]

/-- A value loaded from the touched columns at local column `p` is the buffer's value at column 512·(t mod 8) + p. -/
theorem ld_at (t : Fin cfg0.N) (X : Vec Ideal S1x4096 .f32) (n2 : Fin 4096) (p : Fin 512) (h : n2.val = 512 * (t.val % 8) + p.val) :
    View.ld (Val := Elt Ideal) (e' := .f32) X (Rect.unit (s := S1x4096) (k0_off1 (grid0.coords t)) S1x512.size (Facts₀.k0_off1_inb (grid0.coords t))) (ix2 0 p)
      = X (ix2 0 n2) := by
  show X _ = X _
  congr 1
  funext a
  apply Fin.ext
  match a with
  | ⟨0, _⟩ =>
    show k0_off1 (grid0.coords t) 0 + 1 * 0 = 0
    rw [off_eq t]; rfl
  | ⟨1, _⟩ =>
    show k0_off1 (grid0.coords t) 1 + 1 * p.val = n2.val
    rw [off_eq t]
    show 512 * (t.val % 8) + 1 * p.val = n2.val
    omega

/-- AFTER POINT `t`, THE FIRST CLOUD'S RUNNING MINIMUM: least squared distance from row `q` of the first cloud's
    current tile to the second cloud's points in tiles 0 … t mod 8. -/
theorem row_inv (c : Dev nD) : ∀ (n : ℕ) (t : Fin cfg0.N), t.val = n → ∀ (q : Fin 512) (bb : Fin 4) (n1 : Fin 4096),
    bb.val = t.val / 64 → n1.val = 512 * (t.val / 8 % 8) + q.val →
    (outsAt0 m c t.val t.isLt).2.2.1 (ix2 0 q)
      = (Finset.univ.filter (fun n2 : Fin 4096 => n2.val / 512 ≤ t.val % 8)).fold min ⊤
          (fun n2 => d2 (cloudA m c) (cloudB m c) bb n1 n2) := by
  intro n
  induction n with
  | zero =>
    intro t ht q bb n1 hb hn1
    have h0 : t.val % 8 = 0 := by omega
    have hJ : t.val % 8 < 8 := Nat.mod_lt _ (by norm_num)
    rw [Pts.row_reset m c t h0, pay2_apply, pay1_apply, pay8_apply, min_eq_right le_top,
      foldMin_filter_congr _ _ (fun n2 : Fin 4096 => n2.val / 512 ≤ t.val % 8) (fun n2 : Fin 4096 => n2.val / 512 = t.val % 8)
        (fun n2 => by omega),
      foldMin_filter_tile _ (t.val % 8) (tileIdx (t.val % 8) hJ) (fun p => rfl)]
    exact Finset.fold_congr fun p _ => tile_d2 m c t p q bb n1 (tileIdx _ hJ p) hb hn1 rfl
  | succ k ih =>
    intro t ht q bb n1 hb hn1
    have hN := N_lt t
    have hJ : t.val % 8 < 8 := Nat.mod_lt _ (by norm_num)
    by_cases h0 : t.val % 8 = 0
    · rw [Pts.row_reset m c t h0, pay2_apply, pay1_apply, pay8_apply, min_eq_right le_top,
        foldMin_filter_congr _ _ (fun n2 : Fin 4096 => n2.val / 512 ≤ t.val % 8) (fun n2 : Fin 4096 => n2.val / 512 = t.val % 8)
          (fun n2 => by omega),
        foldMin_filter_tile _ (t.val % 8) (tileIdx (t.val % 8) hJ) (fun p => rfl)]
      exact Finset.fold_congr fun p _ => tile_d2 m c t p q bb n1 (tileIdx _ hJ p) hb hn1 rfl
    · have ih' := ih ⟨t.val - 1, Nat.lt_of_le_of_lt (Nat.sub_le _ _) t.isLt⟩ (by dsimp only; omega) q bb n1
        (by dsimp only; omega) (by dsimp only; omega)
      dsimp only at ih'
      rw [Pts.row_acc m c t h0, pay2_apply, pay8_apply, ih',
        foldMin_filter_or _ _ (fun n2 : Fin 4096 => n2.val / 512 ≤ t.val % 8) (fun n2 : Fin 4096 => n2.val / 512 ≤ (t.val - 1) % 8)
          (fun n2 : Fin 4096 => n2.val / 512 = t.val % 8) (fun n2 => by omega),
        foldMin_filter_tile _ (t.val % 8) (tileIdx (t.val % 8) hJ) (fun p => rfl)]
      exact congrArg (min _) (Finset.fold_congr fun p _ => tile_d2 m c t p q bb n1 (tileIdx _ hJ p) hb hn1 rfl)

/-- AFTER POINT `t`, THE SECOND CLOUD'S RUNNING MINIMUM: for every point `n2` of the second cloud, the least squared
    distance to the first cloud's points in the tiles already paired with `n2`'s tile in this batch. -/
theorem col_inv (c : Dev nD) : ∀ (n : ℕ) (t : Fin cfg0.N), t.val = n → ∀ (n2 : Fin 4096) (bb : Fin 4), bb.val = t.val / 64 →
    (outsAt0 m c t.val t.isLt).2.2.2 (ix2 0 n2)
      = (Finset.univ.filter (fun n1 : Fin 4096 => 8 * (n1.val / 512) + n2.val / 512 ≤ t.val % 64)).fold min ⊤
          (fun n1 => d2 (cloudA m c) (cloudB m c) bb n1 n2) := by
  intro n
  induction n with
  | zero =>
    intro t ht n2 bb hb
    have h1 : t.val % 64 = 0 := by omega
    have hI : t.val / 8 % 8 < 8 := Nat.mod_lt _ (by norm_num)
    by_cases hit : n2.val / 512 = t.val % 8
    · have hx : ∀ a : Fin 2, ((ix2 (0 : Fin 1) n2 : S1x4096.Idx) a).val
          = (![0, 512 * (t.val % 8)] : Fin 2 → ℕ) a + ((ix2 (0 : Fin 1) (⟨n2.val % 512, Nat.mod_lt _ (by norm_num)⟩ : Fin 512) : S1x512.Idx) a).val := fun a =>
        match a with
        | ⟨0, _⟩ => rfl
        | ⟨1, _⟩ => by show n2.val = 512 * (t.val % 8) + n2.val % 512; omega
      rw [Pts.col_first_hit m c t h1 (ix2 0 n2) (ix2 0 ⟨n2.val % 512, Nat.mod_lt _ (by norm_num)⟩) _ (off_eq t) hx, pay4_apply, pay9_apply]
      show min (k0_pay3 (F := Ideal) _) _ = _
      rw [pay3_apply, min_eq_right le_top,
        foldMin_filter_congr _ _ (fun n1 : Fin 4096 => 8 * (n1.val / 512) + n2.val / 512 ≤ t.val % 64)
          (fun n1 : Fin 4096 => n1.val / 512 = t.val / 8 % 8) (fun n1 => by omega),
        foldMin_filter_tile _ (t.val / 8 % 8) (tileIdx (t.val / 8 % 8) hI) (fun p => rfl)]
      exact Finset.fold_congr fun q _ => tile_d2 m c t ⟨n2.val % 512, Nat.mod_lt _ (by norm_num)⟩ q bb (tileIdx _ hI q) n2 hb rfl
        (by show n2.val = 512 * (t.val % 8) + n2.val % 512; omega)
    · rw [Pts.col_first_miss m c t h1 (ix2 0 n2) _ (off_eq t) 1
          (by show n2.val < 512 * (t.val % 8) ∨ 512 * (t.val % 8) + 512 ≤ n2.val; omega), pay3_apply,
        foldMin_filter_none _ _ _ (fun n1 => by omega)]
  | succ k ih =>
    intro t ht n2 bb hb
    have hN := N_lt t
    have hI : t.val / 8 % 8 < 8 := Nat.mod_lt _ (by norm_num)
    by_cases h1 : t.val % 64 = 0
    · by_cases hit : n2.val / 512 = t.val % 8
      · have hx : ∀ a : Fin 2, ((ix2 (0 : Fin 1) n2 : S1x4096.Idx) a).val
            = (![0, 512 * (t.val % 8)] : Fin 2 → ℕ) a + ((ix2 (0 : Fin 1) (⟨n2.val % 512, Nat.mod_lt _ (by norm_num)⟩ : Fin 512) : S1x512.Idx) a).val := fun a =>
          match a with
          | ⟨0, _⟩ => rfl
          | ⟨1, _⟩ => by show n2.val = 512 * (t.val % 8) + n2.val % 512; omega
        rw [Pts.col_first_hit m c t h1 (ix2 0 n2) (ix2 0 ⟨n2.val % 512, Nat.mod_lt _ (by norm_num)⟩) _ (off_eq t) hx, pay4_apply, pay9_apply]
        show min (k0_pay3 (F := Ideal) _) _ = _
        rw [pay3_apply, min_eq_right le_top,
          foldMin_filter_congr _ _ (fun n1 : Fin 4096 => 8 * (n1.val / 512) + n2.val / 512 ≤ t.val % 64)
            (fun n1 : Fin 4096 => n1.val / 512 = t.val / 8 % 8) (fun n1 => by omega),
          foldMin_filter_tile _ (t.val / 8 % 8) (tileIdx (t.val / 8 % 8) hI) (fun p => rfl)]
        exact Finset.fold_congr fun q _ => tile_d2 m c t ⟨n2.val % 512, Nat.mod_lt _ (by norm_num)⟩ q bb (tileIdx _ hI q) n2 hb rfl
          (by show n2.val = 512 * (t.val % 8) + n2.val % 512; omega)
      · rw [Pts.col_first_miss m c t h1 (ix2 0 n2) _ (off_eq t) 1
            (by show n2.val < 512 * (t.val % 8) ∨ 512 * (t.val % 8) + 512 ≤ n2.val; omega), pay3_apply,
          foldMin_filter_none _ _ _ (fun n1 => by omega)]
    · have ih' := ih ⟨t.val - 1, Nat.lt_of_le_of_lt (Nat.sub_le _ _) t.isLt⟩ (by dsimp only; omega) n2 bb (by dsimp only; omega)
      dsimp only at ih'
      by_cases hit : n2.val / 512 = t.val % 8
      · have hx : ∀ a : Fin 2, ((ix2 (0 : Fin 1) n2 : S1x4096.Idx) a).val
            = (![0, 512 * (t.val % 8)] : Fin 2 → ℕ) a + ((ix2 (0 : Fin 1) (⟨n2.val % 512, Nat.mod_lt _ (by norm_num)⟩ : Fin 512) : S1x512.Idx) a).val := fun a =>
          match a with
          | ⟨0, _⟩ => rfl
          | ⟨1, _⟩ => by show n2.val = 512 * (t.val % 8) + n2.val % 512; omega
        rw [Pts.col_next_hit m c t h1 (ix2 0 n2) (ix2 0 ⟨n2.val % 512, Nat.mod_lt _ (by norm_num)⟩) _ (off_eq t) hx, pay4_apply, pay9_apply,
          ld_at t _ n2 ⟨n2.val % 512, Nat.mod_lt _ (by norm_num)⟩ (by show n2.val = 512 * (t.val % 8) + n2.val % 512; omega), ih',
          foldMin_filter_or _ _ (fun n1 : Fin 4096 => 8 * (n1.val / 512) + n2.val / 512 ≤ t.val % 64)
            (fun n1 : Fin 4096 => 8 * (n1.val / 512) + n2.val / 512 ≤ (t.val - 1) % 64)
            (fun n1 : Fin 4096 => n1.val / 512 = t.val / 8 % 8) (fun n1 => by omega),
          foldMin_filter_tile _ (t.val / 8 % 8) (tileIdx (t.val / 8 % 8) hI) (fun p => rfl)]
        exact congrArg (min _) (Finset.fold_congr fun q _ => tile_d2 m c t ⟨n2.val % 512, Nat.mod_lt _ (by norm_num)⟩ q bb (tileIdx _ hI q) n2 hb rfl
          (by show n2.val = 512 * (t.val % 8) + n2.val % 512; omega))
      · rw [Pts.col_next_miss m c t h1 (ix2 0 n2) _ (off_eq t) 1
            (by show n2.val < 512 * (t.val % 8) ∨ 512 * (t.val % 8) + 512 ≤ n2.val; omega), ih']
        exact foldMin_filter_congr _ _ _ _ (fun n1 => by omega)

end Cert.KernelIdeal.Inv

end
-- ==== Proof.KernelResult.lean ====
/-
  The first program's result.  After the last second-cloud tile of a sweep the first cloud's running minimum has met
  every tile of the second cloud, so what is written back there is, row by row, the clamped root of the least squared
  distance to the whole second cloud; after a batch's last point the second cloud's running minimum has met every
  pair of tiles, so what is written back is the clamped root of the least squared distance to the whole first cloud.
  The two result arrays are therefore the two families of the shared mathematics with a unit axis in the middle, and
  the host operations after the region average them.
-/
import proofs.«135613_j17952963297894_1_alg».proof.Proof.Invariant

noncomputable section

open Idealize.ShloMosaic Idealize.ShloMosaic.TcCoe Idealize.SL.Sem Idealize.ShloMosaic.ValueIdx

namespace Cert.KernelIdeal.Result

open Cert.KernelIdeal Cert.KernelIdeal.Gen Cert.Chamfer Cert.KernelIdeal.Pay Cert.KernelIdeal.Arr

variable (m : (ℓ : Loc nD τ sig) → Buf (Elt Ideal) ℓ) (ρ : Dev nD → PrngReg)

/-- The first result array: (batch, ·, n1) ↦ clamped root of the least squared distance from point n1 of the first cloud. -/
def G2 (c : Dev nD) : Buf (Elt Ideal) ((c : Thread nD τ).loc main_v0_0) :=
  fun i => rowAt (cloudA m c) (cloudB m c) (i 0) (i 2)

/-- The second result array: (batch, ·, n2) ↦ clamped root of the least squared distance from point n2 of the second cloud. -/
def G3 (c : Dev nD) : Buf (Elt Ideal) ((c : Thread nD τ).loc main_v0_1) :=
  fun i => colAt (cloudA m c) (cloudB m c) (i 0) (i 2)

theorem arr2 (c : Dev nD) : (dats m 0 c).arrAt 2 cfg0.N = G2 m c :=
  arr2_eq m c (G2 m c) fun t h7 q bb n hb hn => by
    rw [Pts.out2_at m c t h7, pay5_apply, Inv.row_inv m c t.val t rfl q bb n hb hn]
    show rootOf _ = rowAt (cloudA m c) (cloudB m c) bb n
    unfold rowAt
    rw [foldMin_filter_all _ _ _ (fun n2 => by have := n2.isLt; omega)]

theorem arr3 (c : Dev nD) : (dats m 0 c).arrAt 3 cfg0.N = G3 m c :=
  arr3_eq m c (G3 m c) fun t h63 n bb hb => by
    rw [Pts.out3_at m c t h63, pay6_apply, Inv.col_inv m c t.val t rfl n bb hb]
    show rootOf _ = colAt (cloudA m c) (cloudB m c) bb n
    unfold colAt
    rw [foldMin_filter_all _ _ _ (fun n1 => by have := n1.isLt; have := n.isLt; omega)]

theorem flat_G2 (c : Dev nD) :
    flat (G2 m c) = rowOut (m ((c : Thread nD τ).loc main_arg0)) (m ((c : Thread nD τ).loc main_arg1)) := by
  funext j
  rw [flat_apply]
  unfold G2 rowOut
  rw [cloudA_eq, cloudB_eq]
  rfl

theorem flat_G3 (c : Dev nD) :
    flat (G3 m c) = colOut (m ((c : Thread nD τ).loc main_arg0)) (m ((c : Thread nD τ).loc main_arg1)) := by
  funext j
  rw [flat_apply]
  unfold G3 colOut
  rw [cloudA_eq, cloudB_eq]
  rfl

/-- The first program's run, its result named by the shared mathematics. -/
theorem run : θ_run defs (onTc (τ := τ) (main (F := Ideal))) ⟨m, fun _ => 0, ρ⟩ fun r => ∀ c : Dev nD,
      r.2.mem ((c.tc : Thread nD τ).loc main_v9)
          = tail Facts₀.reducesTo_S4x4096_S4_d1 Facts₀.h_S_ Facts₀.bcast_S_S4 Facts₀.reducesTo_S4_S_d0
              (rowOut (m ((c.tc : Thread nD τ).loc main_arg0)) (m ((c.tc : Thread nD τ).loc main_arg1)))
              (colOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [flat_G2, flat_G3]), (h c).2⟩)
    (run_of_arrays m ρ (G2 m) (G3 m) (arr2 m) (arr3 m))

end Cert.KernelIdeal.Result

end
-- ==== Proof.RefValue.lean ====
/-
  The second program's result as the shared mathematics: its two families of least distances are `refRow` and
  `refCol` of the two argument arrays (the distance matrix is the root of the coordinate sum of squared differences,
  first cloud minus second; each family a least element from plus infinity along one axis of that matrix), and what it
  does with them is `tail`.
-/
import proofs.«135613_j17952963297894_1_alg».proof.Proof.Gen.ReferenceIdeal.Run
import proofs.«135613_j17952963297894_1_alg».proof.Proof.Gen.ReferenceIdeal.Read
import proofs.«135613_j17952963297894_1_alg».proof.Proof.Spec
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.Chamfer

/-- Through the two broadcasts the first cloud is read at (batch, n1, coordinate): the second point's axis is dropped. -/
theorem idx_fst (bb : Fin 4) (n1 n2 : Fin 4096) (k : Fin 3) :
    Read.idx_main_v0 (Read.idx_main_v2 (Read.idx_main_call0_v1 (ix3 bb n1 n2) k)) = ix3 bb n1 k :=
  funext fun a => Fin.ext (by match a with | ⟨0, _⟩ => rfl | ⟨1, _⟩ => rfl | ⟨2, _⟩ => rfl)

/-- Through the two broadcasts the second cloud is read at (batch, n2, coordinate): the first point's axis is dropped. -/
theorem idx_snd (bb : Fin 4) (n1 n2 : Fin 4096) (k : Fin 3) :
    Read.idx_main_v1 (Read.idx_main_v3 (Read.idx_main_call0_v1 (ix3 bb n1 n2) k)) = ix3 bb n2 k :=
  funext fun a => Fin.ext (by match a with | ⟨0, _⟩ => rfl | ⟨1, _⟩ => rfl | ⟨2, _⟩ => rfl)

/-- The distance matrix at (batch, n1, n2): the root of zero plus the coordinate sum of the squared differences. -/
theorem v5_apply (x0 x1 : FVec Ideal S4x4096x3 .f32) (bb : Fin 4) (n1 n2 : Fin 4096) :
    Read.val_main_v5 (F := Ideal) x0 x1 (ix3 bb n1 n2) = refD x0 x1 bb n1 n2 := by
  rw [Read.val_main_v5_apply, Read.val_main_call0_v1_apply]
  simp only [Read.val_main_call0_v0_apply, Read.val_main_v4_apply, Read.val_main_v2_apply, Read.val_main_v0_apply,
    Read.val_main_v3_apply, Read.val_main_v1_apply, Read.val_main_call0_cst_apply]
  simp only [idx_fst, idx_snd, Ideal.hostUnary_sqrt_def, Ideal.mulf_def, Ideal.subf_def, Ideal.ofBits_def,
    Ideal.ofBits_zero_f32]
  rfl

/-- A least element under the float minimum from the top is the least element under the order's minimum, the
    family replaced by a pointwise equal one. -/
theorem foldMin_eq {ι : Type} (s : Finset ι) (f g : ι → EReal) (h : ∀ k, f k = g k) :
    s.fold (FloatOps.minimumf (F := Ideal) (φ := .f32)) (⊤ : EReal) f = s.fold min ⊤ g := by
  have hfg : f = g := funext h
  subst hfg
  rfl

/-- Inserting coordinate `k` on the last axis of (batch, point) gives (batch, point, k). -/
theorem lift_d2 (h : S4x4096x4096.Reduces [2] S4x4096) (b : Fin 4) (n : Fin 4096) (k : Fin 4096) :
    h.lift (ix2 b n) k = ix3 b n k :=
  funext fun a => Fin.ext (by match a with | ⟨0, _⟩ => rfl | ⟨1, _⟩ => rfl | ⟨2, _⟩ => rfl)

/-- Inserting coordinate `k` on the middle axis of (batch, point) gives (batch, k, point). -/
theorem lift_d1 (h : S4x4096x4096.Reduces [1] S4x4096) (b : Fin 4) (n : Fin 4096) (k : Fin 4096) :
    h.lift (ix2 b n) k = ix3 b k n :=
  funext fun a => Fin.ext (by match a with | ⟨0, _⟩ => rfl | ⟨1, _⟩ => rfl | ⟨2, _⟩ => rfl)

/-- At (batch, n1) the minimum along the last axis, from plus infinity, is the least distance to the second cloud. -/
theorem v6_at (x0 x1 : FVec Ideal S4x4096x3 .f32) (b : Fin 4) (n : Fin 4096) :
    Read.val_main_v6 (F := Ideal) x0 x1 (ix2 b n) = refRowAt x0 x1 b n := by
  unfold Read.val_main_v6
  rw [Host.reduce_eq_fold_single FloatOps.minimumf _ _ reducesTo_S4x4096x4096_S4x4096_d2 (by decide) h_S_]
  rw [Read.val_main_cst_apply, Ideal.ofBits_def, ofBits_inf_f32]
  unfold refRowAt
  exact foldMin_eq (ι := Fin 4096) Finset.univ _ _ (fun k =>
    (congrArg (Read.val_main_v5 (F := Ideal) x0 x1) (lift_d2 _ b n k)).trans (v5_apply x0 x1 b n k))

/-- At (batch, n2) the minimum along the middle axis, from plus infinity, is the least distance to the first cloud. -/
theorem v7_at (x0 x1 : FVec Ideal S4x4096x3 .f32) (b : Fin 4) (n : Fin 4096) :
    Read.val_main_v7 (F := Ideal) x0 x1 (ix2 b n) = refColAt x0 x1 b n := by
  unfold Read.val_main_v7
  rw [Host.reduce_eq_fold_single FloatOps.minimumf _ _ reducesTo_S4x4096x4096_S4x4096_d1 (by decide) h_S_]
  rw [Read.val_main_cst_0_apply, Ideal.ofBits_def, ofBits_inf_f32]
  unfold refColAt
  exact foldMin_eq (ι := Fin 4096) Finset.univ _ _ (fun k =>
    (congrArg (Read.val_main_v5 (F := Ideal) x0 x1) (lift_d1 _ b n k)).trans (v5_apply x0 x1 b k n))

/-- Least distance along the second cloud. -/
theorem v6_eq (x0 x1 : FVec Ideal S4x4096x3 .f32) : Read.val_main_v6 (F := Ideal) x0 x1 = refRow x0 x1 :=
  funext fun j => (congrArg (Read.val_main_v6 (F := Ideal) x0 x1) (eq_ix2 (n0 := 4) (n1 := 4096) j)).trans
    (v6_at x0 x1 (j 0) (j 1))

/-- Least distance along the first cloud. -/
theorem v7_eq (x0 x1 : FVec Ideal S4x4096x3 .f32) : Read.val_main_v7 (F := Ideal) x0 x1 = refCol x0 x1 :=
  funext fun j => (congrArg (Read.val_main_v7 (F := Ideal) x0 x1) (eq_ix2 (n0 := 4) (n1 := 4096) j)).trans
    (v7_at x0 x1 (j 0) (j 1))

/-- The result is the shared averaging of the two families. -/
theorem v14_eq (x0 x1 : FVec Ideal S4x4096x3 .f32) :
    Read.val_main_v14 (F := Ideal) x0 x1
      = tail Facts₀.reducesTo_S4x4096_S4_d1 Facts₀.h_S_ Facts₀.bcast_S_S4 Facts₀.reducesTo_S4_S_d0 (refRow x0 x1) (refCol x0 x1) := by
  unfold Read.val_main_v14 Read.val_main_v13 Read.val_main_v12 Read.val_main_v11 Read.val_main_v10 Read.val_main_v9
    Read.val_main_v8 Read.val_main_cst_1 Read.val_main_cst_2 Read.val_main_cst_3 Read.val_main_cst_4 Read.val_main_cst_5
  rw [v6_eq, v7_eq]
  rfl

/-- The second program's run, its result named by the shared mathematics. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = tail Facts₀.reducesTo_S4x4096_S4_d1 Facts₀.h_S_ Facts₀.bcast_S_S4 Facts₀.reducesTo_S4_S_d0
              (refRow (m ((c.tc : Thread nD τ).loc main_arg0)) (m ((c.tc : Thread nD τ).loc main_arg1)))
              (refCol (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v14_eq _ _).trans (v14_eq _ _)), (h c).2⟩)
    (Cert.ReferenceIdeal.Value.run (F := Ideal) m ρ)

end Cert.ReferenceIdeal.RefValue

end
-- ==== Proof.lean ====
/-
  Two programs compute the symmetric nearest-neighbour distance of two point clouds (4 batches, 4096 points, 3
  coordinates), averaged over points and batches.

  The first sweeps the pairs of 512-point tiles of the two clouds, keeps for every point of either cloud the least
  SQUARED distance met so far, and takes the root (after a clamp at zero) only when a point has met the whole other
  cloud.  The second builds every distance — the root of the summed squared coordinate differences — and then takes
  least elements along either axis.  Over the extended reals the two agree with no condition on the inputs: a squared
  difference does not see the order of its terms, a sum of three squares from zero is the same in either grouping and
  is never negative, and the clamped root is monotone and keeps the top element, so it commutes with a least element
  over a finite family (Proof/Spec.lean).  What each program then does with the two families of least distances is
  the same chain of sums and quotients, never opened.

  Proof/Pieces.lean, PointValues.lean, Invariant.lean: what one grid point leaves, and by induction along the grid the
  two running minima after every point.  Proof/KernelArrays.lean, KernelResult.lean: the two result arrays and the
  run through the host operations after the region.  Proof/RefValue.lean: the second program's run in the same words.
  Proof/Payload.lean: one tile's arithmetic entry by entry.  The ideal pass rewrote nothing, so the idealization is the
  program's own text.
-/
import proofs.«135613_j17952963297894_1_alg».proof.Defs
import proofs.«135613_j17952963297894_1_alg».proof.Proof.Gen.Kernel
import proofs.«135613_j17952963297894_1_alg».proof.Proof.Gen.Kernel.Skeleton
import proofs.«135613_j17952963297894_1_alg».proof.Proof.Gen.Kernel.Launch
import proofs.«135613_j17952963297894_1_alg».proof.Proof.Gen.Kernel.Points
import proofs.«135613_j17952963297894_1_alg».proof.Proof.Gen.Kernel.Frame
import proofs.«135613_j17952963297894_1_alg».proof.Proof.Gen.KernelIdeal
import proofs.«135613_j17952963297894_1_alg».proof.Proof.Gen.KernelIdeal.Skeleton
import proofs.«135613_j17952963297894_1_alg».proof.Proof.Gen.KernelIdeal.Launch
import proofs.«135613_j17952963297894_1_alg».proof.Proof.Gen.KernelIdeal.Points
import proofs.«135613_j17952963297894_1_alg».proof.Proof.Gen.KernelIdeal.Frame
import proofs.«135613_j17952963297894_1_alg».proof.Proof.Gen.ReferenceIdeal
import proofs.«135613_j17952963297894_1_alg».proof.Proof.Gen.Pre_finite_inputs
import proofs.«135613_j17952963297894_1_alg».proof.Proof.Gen.ReferenceIdeal.Run
import proofs.«135613_j17952963297894_1_alg».proof.Proof.Gen.ReferenceIdeal.Read
import proofs.«135613_j17952963297894_1_alg».proof.Proof.KernelResult
import proofs.«135613_j17952963297894_1_alg».proof.Proof.RefValue
import Idealize.ShloMosaic.Adequacy
import Idealize.ShloMosaic.Init

noncomputable section

namespace Cert.Proof

open Idealize.ShloMosaic Idealize.SL.Sem Cert.Chamfer

/-- Both programs terminate without a fault and leave their arguments as they were. -/
theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two clouds both programs end with the same number: the shared averaging of the two
    families of least distances, which the two spellings agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2, ← rowOut_eq_refRow, ← colOut_eq_refCol]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
